-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S16384x2048 .f32) (main_arg1 : FVec F S2048x2048 .f32) (main_arg2 : FVec F S2048x2048 .f32) (main_arg3 : FVec F S2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S16384x2048 : Shape := ⟨2, ![16384, 2048]⟩
abbrev S2048x2048 : Shape := ⟨2, ![2048, 2048]⟩
abbrev S2048 : Shape := ⟨1, ![2048]⟩
abbrev S512x2048 : Shape := ⟨2, ![512, 2048]⟩
abbrev S1x2048 : Shape := ⟨2, ![1, 2048]⟩
abbrev S512x1024 : Shape := ⟨2, ![512, 1024]⟩
abbrev S2048x1024 : Shape := ⟨2, ![2048, 1024]⟩
abbrev S1024x2048 : Shape := ⟨2, ![1024, 2048]⟩

abbrev nBuf : Space → Nat
  | .hbm => 7
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S2048x1024, .bf16⟩
  | .local _ .vmem, ⟨9, _⟩ => ⟨S2048x1024, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![32, 2], ![false, false]⟩

def k1_cond2 (i : grid1.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  packedbf16_S512x2048_S512x2048_0_0 : (Rect.unit (s := S512x2048) ![0, 0] S512x2048.size inb_S512x2048_S512x2048_0_0).PackedRows (EltTy.packing .bf16)
  shapeCasts_S2048_S1x2048 : S2048.ShapeCasts S1x2048
  shapeCasts_S512x2048_S512x2048 : S512x2048.ShapeCasts S512x2048
  inb_S512x1024_S512x1024_0_0 : ∀ a, (![0, 0] : Fin 2 → Nat) a + S512x1024.size a ≤ S512x1024.size a
  h_S512x1024 : 0 < S512x1024.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  transposes_S2048x1024_p1_0_S1024x2048 : S2048x1024.Transposes [1, 0] S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .f32 = 32 ∨ (Rect.block (s := S2048x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .f32 = 32 ∨ (Rect.block (s := S2048x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S2048x2048.size a
  hwx0_2 : ∀ i : grid0.Coords, EltTy.bits .bf16 = 32 ∨ (Rect.block (s := S2048x2048) S512x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S16384x2048.size a
  hwx1_0 : ∀ i : grid1.Coords, EltTy.bits .f32 = 32 ∨ (Rect.block (s := S16384x2048) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S2048x2048.size a
  hwx1_1 : ∀ i : grid1.Coords, EltTy.bits .bf16 = 32 ∨ (Rect.block (s := S2048x2048) S2048x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S16384x2048.size a
  hwx1_3 : ∀ i : grid1.Coords, EltTy.bits .f32 = 32 ∨ (Rect.block (s := S16384x2048) S512x2048.size (cc1_transform_3 i) (hinb1_3 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S16384x2048, .f32⟩
  | .hbm, ⟨6, _⟩ => ⟨S1x2048, .f32⟩
  | .hbm, ⟨7, _⟩ => ⟨S16384x2048, .f32⟩
  | .hbm, ⟨8, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  dot_S16384x2048_S2048x2048_S16384x2048_1_1_0_0_n_n_wf : DotDims.WF S16384x2048 S2048x2048 S16384x2048 [1] [1] [0] [0] [] []

variable [Facts₀]

def dot_S16384x2048_S2048x2048_S16384x2048_1_1_0_0_n_n : DotDims S16384x2048 S2048x2048 S16384x2048 where
  lhsContracting := [1]
  rhsContracting := [1]
  lhsNonContracting := [0]
  rhsNonContracting := [0]
  lhsBatch := []
  rhsBatch := []
  wf := dot_S16384x2048_S2048x2048_S16384x2048_1_1_0_0_n_n_wf

class Facts : Prop extends Facts₀ where

variable [Facts]
-- ==== Proof.KbRegion0.lean ====
/-
  The first kernel region: the elementwise product of the mask and the weight, one block of 512 rows at each of
  the four grid points. Each point loads its two input blocks whole, multiplies them entry by entry, narrows the
  product and stores it whole into the output block; nothing is kept between points.
  Stated at the contents `V` the core's buffers hold when the region is entered.
-/
import proofs.«161340_j23029614641364_1_alg».proof.Proof.Gen.Kernel.Launch
import proofs.«161340_j23029614641364_1_alg».proof.Proof.Gen.Kernel.Skeleton
import proofs.«161340_j23029614641364_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: that part of the window's array, as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window is fetched at every point and its block never moves under the body, so its staging buffer holds
    the block of the array whenever the body runs. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 512 × 2048 block: the one rectangle every load and store of this body goes through. -/
abbrev rAll0 : Rect S512x2048 := Rect.unit (s := S512x2048) ![0, 0] S512x2048.size inb_S512x2048_S512x2048_0_0

/-- What the body leaves in the output block, from its two input blocks: the narrowed entrywise product, stored whole. -/
def prodBlk (x0 x1 : Vec F S512x2048 .f32) : Vec F S512x2048 .bf16 :=
  View.canon [⟨rAll0, k0_pay1 (View.ld x0 rAll0) (View.ld x1 rAll0)⟩]

/-- The one store covers the block. -/
theorem cover_prod (p0 : Vec F S512x2048 .bf16) (y : S512x2048.Idx) :
    ∃ pc ∈ ([⟨rAll0, p0⟩] : List (View.Piece (Elt F) S512x2048 .bf16)), y ∈ pc.1.set :=
  View.cover_of_tiled [⟨rAll0, p0⟩] S512x2048.size (by rfl) y

set_option maxHeartbeats 1000000 in
/-- The body on whole staging buffers: the inputs keep their contents, the output ends at the product block. -/
theorem sound_kernel0 (c : Dev nD) (E : Set ℕ) (i : grid0.Coords) (arg1 : Memref sig .tc .vmem S512x2048 .f32) (harg1 : arg1.IsWhole)
    (arg2 : Memref sig .tc .vmem S512x2048 .f32) (harg2 : arg2.IsWhole) (arg3 : Memref sig .tc .vmem S512x2048 .bf16) (harg3 : arg3.IsWhole)
    (x0 x1 : Vec F S512x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prodBlk x0 x1)) -∗ K ⟨⟩))
      ⊢ wp frame (wpE (defs₀ (F := F)) Variants.none c none) E (cc0__mul_mask_kernel i arg1 harg1 arg2 harg2 arg3 harg3) K := by
  simp only [cc0__mul_mask_kernel_eq_skeleton]; unfold cc0__mul_mask_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_prod _)

/-- The region's proof data on core `c`: the arrays as found; after the body each input buffer at its block and the
    output buffer at the product of the two input blocks; nothing owed, nothing kept between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => prodBlk (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = prodBlk (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: its input buffers hold their blocks, so the triple above applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KbRun1.lean ====
/-
  The second kernel region's body, run once for each of its two control cases. The grid is 32 row blocks by 2
  halves of the contracted axis. On the first half (`k = 0`) the body clears the accumulator, adds the half's
  matrix product into it and stores nothing into the output block. On the second half (`k = 1`) it adds the
  half's product into the accumulator as the first half left it and stores accumulator plus bias into the output.
  Each run is stated on whole staging buffers; what it leaves in a buffer it stores into is a list of pieces,
  last store first, found when the run is carried out.
-/
import proofs.«161340_j23029614641364_1_alg».proof.Proof.Gen.Kernel.Launch
import proofs.«161340_j23029614641364_1_alg».proof.Proof.Gen.Kernel.Skeleton
import proofs.«161340_j23029614641364_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body (clear the accumulator), as a condition on the grid coordinates. -/
abbrev cond1_0 (i : grid1.Coords) : Prop := (Scalar.cmpi .ne (Scalar.extui (Scalar.cmpi .eq (BitVec.ofNat 32 (i 1).val) 0#32)) 0#32) = 1#1
/-- It holds exactly on the first half of the contracted axis: the even points. -/
theorem hcond1_0 : ∀ t : Fin cfg1.N, cond1_0 (grid1.coords t) ↔ t.val % 2 = 0 :=
  (by decide +kernel : ∀ t : Fin grid1.N, cond1_0 (grid1.coords t) ↔ t.val % 2 = 0)
/-- The second conditional (store the output), as a condition on the grid coordinates. -/
abbrev cond1_1 (i : grid1.Coords) : Prop := k1_cond2 i = 1#1
/-- It holds exactly on the second half: the odd points. -/
theorem hcond1_1 : ∀ t : Fin cfg1.N, cond1_1 (grid1.coords t) ↔ t.val % 2 = 1 :=
  (by decide +kernel : ∀ t : Fin grid1.N, cond1_1 (grid1.coords t) ↔ t.val % 2 = 1)

set_option maxHeartbeats 1000000 in
/-- FIRST HALF. The inputs and the output block keep their contents; the accumulator, found at anything, ends with
    the pieces `LS` written: the cleared block, then the half's product added to it. -/
noncomputable def kernelRun1_E (c : Dev nD) (i : grid1.Coords) (arg2 : Memref sig .tc .vmem S512x1024 .f32) (harg2 : arg2.IsWhole)
    (arg3 : Memref sig .tc .vmem S2048x1024 .bf16) (harg3 : arg3.IsWhole) (arg4 : Memref sig .tc .vmem S1x2048 .f32) (harg4 : arg4.IsWhole)
    (arg5 : Memref sig .tc .vmem S512x2048 .f32) (harg5 : arg5.IsWhole) (arg6 : Memref sig .tc .vmem S512x2048 .f32) (harg6 : arg6.IsWhole)
    (hc0 : cond1_0 i) (hc1 : ¬cond1_1 i)
    (x0 : Vec F S512x1024 .f32) (x1 : Vec F S2048x1024 .bf16) (x2 : Vec F S1x2048 .f32) :
    { LS : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg2 harg2 arg3 harg3 arg4 harg4 arg5 harg5 arg6 harg6) K } := by
  refine ⟨?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- SECOND HALF. The inputs keep their contents; the accumulator, found at `xs`, ends with the pieces `LS` written
    (the half's product added to `xs`), the output block, found at anything, with the pieces `L3` (accumulator plus bias). -/
noncomputable def kernelRun1_O (c : Dev nD) (i : grid1.Coords) (arg2 : Memref sig .tc .vmem S512x1024 .f32) (harg2 : arg2.IsWhole)
    (arg3 : Memref sig .tc .vmem S2048x1024 .bf16) (harg3 : arg3.IsWhole) (arg4 : Memref sig .tc .vmem S1x2048 .f32) (harg4 : arg4.IsWhole)
    (arg5 : Memref sig .tc .vmem S512x2048 .f32) (harg5 : arg5.IsWhole) (arg6 : Memref sig .tc .vmem S512x2048 .f32) (harg6 : arg6.IsWhole)
    (hc0 : ¬cond1_0 i) (hc1 : cond1_1 i)
    (x0 : Vec F S512x1024 .f32) (x1 : Vec F S2048x1024 .bf16) (x2 : Vec F S1x2048 .f32) (xs : Vec F S512x2048 .f32) :
    Σ' (L3 : List (View.Piece (Elt F) S512x2048 .f32)), { LS : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg2 harg2 arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.KbRegion1.lean ====
/-
  The second kernel region: the matrix product accumulated over the two halves of the contracted axis, per block of
  512 rows. The accumulator lives in a scratch buffer that the body carries from the first half's point to the
  second half's; the output block is stored only at the second half's point and written back there.
  Stated at the contents `V` the core's buffers hold when the region is entered: what the accumulator and the output
  block hold after each grid point, the invariant that carries the accumulator between points, the proof data and
  the body obligation.
-/
import proofs.«161340_j23029614641364_1_alg».proof.Proof.KbRun1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: that part of the window's array, as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the block of its array whenever the body runs, fetched at that point or
    not: where it is not fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- On the first half the body stores nothing into the output block, -/
theorem idleAt1_3_E : ∀ t : Fin cfg1.N, cond1_0 (grid1.coords t) → ¬cond1_1 (grid1.coords t) → cfg1.idle 3 (grid1.coords t) = true := by decide +kernel
/-- and the block is not written back there. -/
theorem noFlush1_3_E : ∀ t : Fin cfg1.N, cond1_0 (grid1.coords t) → ¬cond1_1 (grid1.coords t) → (cfg1.win 3).flush t = false := by decide +kernel
/-- On the second half it stores the block. -/
theorem liveAt1_3_O : ∀ t : Fin cfg1.N, ¬cond1_0 (grid1.coords t) → cond1_1 (grid1.coords t) → cfg1.idle 3 (grid1.coords t) = false := by decide +kernel

/-! ## The staging buffers at a point, and the scratch -/

abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x2048 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S512x2048 .f32 := Memref.whole cc1_scratch0
/-- The views through which the accumulator's and the output block's contents are stated. -/
abbrev VS1 : View sig .tc .vmem S512x2048 .f32 := scM1.view
abbrev VO1 : View sig .tc .vmem S512x2048 .f32 := (Memref.whole cc1_stg3_0 : Memref sig .tc .vmem S512x2048 .f32).view

/-! ## What each case leaves: the run's pieces read back -/

section Cases
variable (c : Dev nD) (i : grid1.Coords) (arg2 : Memref sig .tc .vmem S512x1024 .f32) (harg2 : arg2.IsWhole)
    (arg3 : Memref sig .tc .vmem S2048x1024 .bf16) (harg3 : arg3.IsWhole) (arg4 : Memref sig .tc .vmem S1x2048 .f32) (harg4 : arg4.IsWhole)
    (arg5 : Memref sig .tc .vmem S512x2048 .f32) (harg5 : arg5.IsWhole) (arg6 : Memref sig .tc .vmem S512x2048 .f32) (harg6 : arg6.IsWhole)
    (x0 : Vec F S512x1024 .f32) (x1 : Vec F S2048x1024 .bf16) (x2 : Vec F S1x2048 .f32)

/-- First half: the accumulator's pieces tile it. -/
theorem scover1_E (hc0 : cond1_0 i) (hc1 : ¬cond1_1 i) (y : S512x2048.Idx) :
    ∃ pc ∈ (kernelRun1_E (F := F) c i arg2 harg2 arg3 harg3 arg4 harg4 arg5 harg5 arg6 harg6 hc0 hc1 x0 x1 x2).1, y ∈ pc.1.set :=
  View.cover_of_tiledL (kernelRun1_E c i arg2 harg2 arg3 harg3 arg4 harg4 arg5 harg5 arg6 harg6 hc0 hc1 x0 x1 x2).1 S512x2048.size (by sl_kernel_rfl) y
/-- First half: what the accumulator holds afterwards. -/
def sout1_E (hc0 : cond1_0 i) (hc1 : ¬cond1_1 i) : Vec F S512x2048 .f32 :=
  VS1.read (Elt F) (VS1.writes (Elt F) VS1.junk (kernelRun1_E c i arg2 harg2 arg3 harg3 arg4 harg4 arg5 harg5 arg6 harg6 hc0 hc1 x0 x1 x2).1)

variable (xs : Vec F S512x2048 .f32)
/-- Second half: the accumulator's pieces tile it, -/
theorem scover1_O (hc0 : ¬cond1_0 i) (hc1 : cond1_1 i) (y : S512x2048.Idx) :
    ∃ pc ∈ (kernelRun1_O (F := F) c i arg2 harg2 arg3 harg3 arg4 harg4 arg5 harg5 arg6 harg6 hc0 hc1 x0 x1 x2 xs).2.1, y ∈ pc.1.set :=
  View.cover_of_tiledL (kernelRun1_O c i arg2 harg2 arg3 harg3 arg4 harg4 arg5 harg5 arg6 harg6 hc0 hc1 x0 x1 x2 xs).2.1 S512x2048.size (by sl_kernel_rfl) y
/-- what it holds afterwards, -/
def sout1_O (hc0 : ¬cond1_0 i) (hc1 : cond1_1 i) : Vec F S512x2048 .f32 :=
  VS1.read (Elt F) (VS1.writes (Elt F) VS1.junk (kernelRun1_O c i arg2 harg2 arg3 harg3 arg4 harg4 arg5 harg5 arg6 harg6 hc0 hc1 x0 x1 x2 xs).2.1)
/-- the output block's pieces tile it, -/
theorem cover1_O (hc0 : ¬cond1_0 i) (hc1 : cond1_1 i) (y : S512x2048.Idx) :
    ∃ pc ∈ (kernelRun1_O (F := F) c i arg2 harg2 arg3 harg3 arg4 harg4 arg5 harg5 arg6 harg6 hc0 hc1 x0 x1 x2 xs).1, y ∈ pc.1.set :=
  View.cover_of_tiledL (kernelRun1_O c i arg2 harg2 arg3 harg3 arg4 harg4 arg5 harg5 arg6 harg6 hc0 hc1 x0 x1 x2 xs).1 S512x2048.size (by sl_kernel_rfl) y
/-- and what the output block holds afterwards. -/
def out1_O (hc0 : ¬cond1_0 i) (hc1 : cond1_1 i) : Vec F S512x2048 .f32 :=
  VO1.read (Elt F) (VO1.writes (Elt F) VO1.junk (kernelRun1_O c i arg2 harg2 arg3 harg3 arg4 harg4 arg5 harg5 arg6 harg6 hc0 hc1 x0 x1 x2 xs).1)
end Cases

/-! ## The accumulator and the output block after each point -/

theorem cfg1_N : cfg1.N = 64 := N_1

/-- After a first-half point: the accumulator cleared, then the half's product added. -/
def accEv (c : Dev nD) (n : ℕ) (hn : n < cfg1.N) (h0 : n % 2 = 0) : Vec F S512x2048 .f32 :=
  sout1_E c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩)
    scM1 (Memref.isWhole_whole _) (iblk1 V c 0 ⟨n, hn⟩) (iblk1 V c 1 ⟨n, hn⟩) (iblk1 V c 2 ⟨n, hn⟩)
    ((hcond1_0 ⟨n, hn⟩).mpr h0) (fun h => by have := (hcond1_1 ⟨n, hn⟩).mp h; (try dsimp only at this); omega)

/-- After a second-half point: the half's product added to what the first half's point left. -/
def accOd (c : Dev nD) (n : ℕ) (hn : n < cfg1.N) (h0 : ¬n % 2 = 0) : Vec F S512x2048 .f32 :=
  sout1_O c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩)
    scM1 (Memref.isWhole_whole _) (iblk1 V c 0 ⟨n, hn⟩) (iblk1 V c 1 ⟨n, hn⟩) (iblk1 V c 2 ⟨n, hn⟩)
    (accEv V c (n - 1) (by omega) (by omega))
    (fun h => h0 ((hcond1_0 ⟨n, hn⟩).mp h)) ((hcond1_1 ⟨n, hn⟩).mpr (by (try dsimp only); omega))

/-- The accumulator after point `n`. -/
def accAt (c : Dev nD) (n : ℕ) (hn : n < cfg1.N) : Vec F S512x2048 .f32 :=
  if h0 : n % 2 = 0 then accEv V c n hn h0 else accOd V c n hn h0

/-- The output block's staging buffer after a second-half point: accumulator plus bias. -/
def outOd (c : Dev nD) (n : ℕ) (hn : n < cfg1.N) (h0 : ¬n % 2 = 0) : Vec F S512x2048 .f32 :=
  out1_O c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩)
    scM1 (Memref.isWhole_whole _) (iblk1 V c 0 ⟨n, hn⟩) (iblk1 V c 1 ⟨n, hn⟩) (iblk1 V c 2 ⟨n, hn⟩)
    (accEv V c (n - 1) (by omega) (by omega))
    (fun h => h0 ((hcond1_0 ⟨n, hn⟩).mp h)) ((hcond1_1 ⟨n, hn⟩).mpr (by (try dsimp only); omega))

/-- The output block's staging buffer after point `n`; at a first-half point nothing is stored and nothing reads
    this value (the window is idle there and not written back). -/
def outAt (c : Dev nD) (n : ℕ) (hn : n < cfg1.N) : Vec F S512x2048 .f32 :=
  if h0 : n % 2 = 0 then VO1.read (Elt F) (VO1.writes (Elt F) VO1.junk []) else outOd V c n hn h0

theorem accAt_even (c : Dev nD) (n : ℕ) (hn : n < cfg1.N) (h0 : n % 2 = 0) : accAt V c n hn = accEv V c n hn h0 := dif_pos h0
theorem accAt_odd (c : Dev nD) (n : ℕ) (hn : n < cfg1.N) (h0 : ¬n % 2 = 0) : accAt V c n hn = accOd V c n hn h0 := dif_neg h0
theorem outAt_odd (c : Dev nD) (n : ℕ) (hn : n < cfg1.N) (h0 : ¬n % 2 = 0) : outAt V c n hn = outOd V c n hn h0 := dif_neg h0

/-! ## The invariant: the accumulator carried between points -/

/-- The scoped buffers of the first region's staging, each at some contents, and the generator register at some state:
    what the body never touches. -/
def restB (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ r, prngReg c r))

/-- What the region hands the kernel is the accumulator at anything beside that rest, -/
theorem PhiA1_split (c : Dev nD) : (Pipeline.ΦA spec1 c : sProp 𝕄) ⊢ iprop((∃ d, owns (c : Thread nD τ) scM1 fullShare d) ∗ restB (F := F) c) := by
  unfold Pipeline.ΦA restB; rw [scopedRest1_eq]; simp only [scM1, owns_whole]
  iintro ⟨⟨H1, H2, H3, H4, H5, H6, HS⟩, Hg⟩
  isplitl [HS]; · iexact HS
  isplitl [H1]; · iexact H1
  isplitl [H2]; · iexact H2
  isplitl [H3]; · iexact H3
  isplitl [H4]; · iexact H4
  isplitl [H5]; · iexact H5
  isplitl [H6]; · iexact H6
  iexact Hg
/-- and conversely. -/
theorem PhiA1_join (c : Dev nD) : iprop((∃ d, owns (c : Thread nD τ) scM1 fullShare d) ∗ restB (F := F) c) ⊢ (Pipeline.ΦA spec1 c : sProp 𝕄) := by
  unfold Pipeline.ΦA restB; rw [scopedRest1_eq]; simp only [scM1, owns_whole]
  iintro ⟨HS, H1, H2, H3, H4, H5, H6, Hg⟩
  isplitr [Hg]
  · isplitl [H1]; · iexact H1
    isplitl [H2]; · iexact H2
    isplitl [H3]; · iexact H3
    isplitl [H4]; · iexact H4
    isplitl [H5]; · iexact H5
    isplitl [H6]; · iexact H6
    iexact HS
  iexact Hg

/-- The invariant before position `n`: before the first point what the region hands the kernel; afterwards the
    accumulator at what the point before left in it, beside the untouched rest. -/
def PhiS (c : Dev nD) : (n : ℕ) → n ≤ cfg1.N → sProp 𝕄
  | 0, _ => Pipeline.ΦA spec1 c
  | n + 1, hn => iprop(owns (c : Thread nD τ) scM1 fullShare (accAt V c n hn) ∗ restB (F := F) c)

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(owns (c : Thread nD τ) scM1 fullShare (accAt V c n hn) ∗ restB (F := F) c) := rfl
theorem PhiS_pos (c : Dev nD) (n : ℕ) (h : n ≤ cfg1.N) (hz : n ≠ 0) :
    PhiS V c n h = iprop(owns (c : Thread nD τ) scM1 fullShare (accAt V c (n - 1) (by omega)) ∗ restB (F := F) c) := by
  cases n with
  | zero => exact absurd rfl hz
  | succ n => rfl

/-! ## The proof data -/

/-- The region's proof data on core `c`: the arrays as found; after the body each input buffer at its block and the
    output buffer at `outAt`; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. Its input buffers hold their blocks; the point's parity says which case it is in. On the
    first half the accumulator is handed over at anything (from the region's entry, or forgetting what the row block
    before left) and taken back at the cleared-then-added value, the output block untouched; on the second half it is
    handed over at what the first half's point left and taken back with the second product added, the output block
    at accumulator plus bias. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 64 := lt_of_lt_of_eq t.isLt cfg1_N
  by_cases h0 : t.val % 2 = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3_E t hc0 hc1) (noFlush1_3_E t hc0 hc1)]
    rw [accAt_even V c t.val t.isLt h0]
    unfold accEv sout1_E; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := (PhiA1_split (F := F) c) $$ HΦ
      icases HΦ' with ⟨HS0, Hg⟩
      iapply ((kernelRun1_E c (grid1.coords t) _ _ _ _ _ _ _ _ _ _ hc0 hc1 (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover1_E c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HS0, Hg⟩, Ho, ⟨%d0, H0⟩, ⟨%d1, H1⟩, ⟨%d2, H2⟩, ⟨%d3, H3⟩⟩
      iapply ((kernelRun1_E c (grid1.coords t) _ _ _ _ _ _ _ _ _ _ hc0 hc1 (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover1_E c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hc0 : ¬cond1_0 (grid1.coords t) := fun h => h0 ((hcond1_0 t).mp h)
    have hc1 : cond1_1 (grid1.coords t) := (hcond1_1 t).mpr (by omega)
    have hz : t.val ≠ 0 := fun e => h0 (by rw [e])
    rw [show (dat1 V c).leavesExact 3 t = owns (c : Thread nD τ) (ms1_3 t) fullShare ((dat1 V c).after 3 t) from by
      unfold Dat.leavesExact; rw [liveAt1_3_O t hc0 hc1], after1_3]
    rw [accAt_odd V c t.val t.isLt h0, outAt_odd V c t.val t.isLt h0]
    rw [PhiS_castSucc V c t, PhiS_pos V c _ _ hz, accAt_even V c (t.val - 1) (by omega) (by omega)]
    unfold accOd outOd sout1_O out1_O; (try dsimp only)
    iintro ⟨⟨HS0, Hg⟩, Ho, ⟨%d0, H0⟩, ⟨%d1, H1⟩, ⟨%d2, H2⟩, ⟨%d3, H3⟩⟩
    iapply ((kernelRun1_O c (grid1.coords t) _ _ _ _ _ _ _ _ _ _ hc0 hc1 (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hg]
    · isplitl [HS0]
      · unfold owns; iexists _; isplitr
        swap; · iexact HS0
        ipureintro; exact View.read_writes_of_cover _ _ _ _ _ (scover1_O c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_O c _ _ _ _ _ _ _ _ _ _ _ _ _ _ _ _ _)

/-- The body obligation of the second region, at every point. -/
theorem body_obligation1 (c : Dev nD) : BodyObligation (dat1 (F := F) V c) (defs₀ (F := F)) Variants.none () Set.univ := fun t => by
  rw [bigSep_W1, bigSep_W1]
  exact sound_body1 V c t

/-- What the region hands the kernel is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives that back, the accumulator's contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := cfg1_N; omega)]
  iintro ⟨HS0, Hg⟩
  iapply (PhiA1_join (F := F) c)
  isplitl [HS0]
  · iexists _; iexact HS0
  iexact Hg

end Cert.Kernel.Hand

end
-- ==== Proof.KbRun.lean ====
/-
  The whole run: the product region, the host reshape of the bias, the accumulating region. Between two items the
  core's unscoped buffers are held whole at contents named here — the launch memory; then the product array in place
  of the first result; then the reshaped bias; then the second region's output in place of the final result — beside
  the generator register and the core owing nothing. Each region is entered from the contents before it: its arrays
  are split out of the unscoped buffers, run through the pipeline, and put back at what the write-backs leave.
  Every weakly fair execution from the launch memory terminates; the final memory holds the result at what the
  second region's write-backs leave and every argument as launched.
-/
import proofs.«161340_j23029614641364_1_alg».proof.Proof.KbRegion0
import proofs.«161340_j23029614641364_1_alg».proof.Proof.KbRegion1
import proofs.«161340_j23029614641364_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries of @main -/

/-- At launch. -/
abbrev U0 (c : Dev nD) : Valuation τ sig (Elt F) := fun b => m (c, b)
abbrev Va (c : Dev nD) (b : Ref sig .tc) : Buf (Elt F) ((c : Thread nD τ).loc b) := U0 m c b
/-- What the first region's write-backs leave in its output array: the product of mask and weight. -/
def mwArr (c : Dev nD) : Buf (Elt F) ((c : Thread nD τ).loc main_v0) := (dat0 (Va m) c).arrAt 2 cfg0.N
/-- After the first region. -/
abbrev U1 (c : Dev nD) : Valuation τ sig (Elt F) := Function.update (U0 m c) main_v0 (mwArr m c)
abbrev U1r (c : Dev nD) (b : Ref sig .tc) : Buf (Elt F) ((c : Thread nD τ).loc b) := U1 m c b
/-- After the host reshape. -/
abbrev U2 (c : Dev nD) : Valuation τ sig (Elt F) := StableHlo.after hostOps1 (U1 m c)
abbrev Vb (c : Dev nD) (b : Ref sig .tc) : Buf (Elt F) ((c : Thread nD τ).loc b) := U2 m c b
/-- What the second region's write-backs leave in its output array: the result. -/
def resArr (c : Dev nD) : Buf (Elt F) ((c : Thread nD τ).loc main_v2) := (dat1 (Vb m) c).arrAt 3 cfg1.N
/-- After the second region. -/
abbrev U3 (c : Dev nD) : Valuation τ sig (Elt F) := Function.update (U2 m c) main_v2 (resArr m c)
abbrev U3r (c : Dev nD) (b : Ref sig .tc) : Buf (Elt F) ((c : Thread nD τ).loc b) := U3 m c b

theorem U1_of (c : Dev nD) (r : Ref sig .tc) (h : r ≠ main_v0) : U1 m c r = U0 m c r := by
  simp only [U1, Function.update_of_ne (StableHlo.devRef_ne_of_ne h : (Proc.devRef .tc r : DevRef τ sig) ≠ Proc.devRef .tc main_v0)]
theorem U1_self (c : Dev nD) : U1 m c main_v0 = mwArr m c := Function.update_self ..
theorem U2_of (c : Dev nD) (r : Ref sig .tc) (h : r ∉ hostOps1_W) : U2 m c r = U1 m c r :=
  StableHlo.after_of_writes_sub hostOps1 _ hostOps1_writes h
theorem U3_of (c : Dev nD) (r : Ref sig .tc) (h : r ≠ main_v2) : U3 m c r = U2 m c r := by
  simp only [U3, Function.update_of_ne (StableHlo.devRef_ne_of_ne h : (Proc.devRef .tc r : DevRef τ sig) ≠ Proc.devRef .tc main_v2)]
theorem U3_self (c : Dev nD) : U3 m c main_v2 = resArr m c := Function.update_self ..

/-- No item writes an argument. -/
theorem U3_main_arg0 (c : Dev nD) : U3 m c main_arg0 = m ((c : Thread nD τ).loc main_arg0) :=
  (U3_of m c main_arg0 (by decide)).trans <| (U2_of m c main_arg0 (by decide)).trans <| (U1_of m c main_arg0 (by decide)).trans rfl
theorem U3_main_arg1 (c : Dev nD) : U3 m c main_arg1 = m ((c : Thread nD τ).loc main_arg1) :=
  (U3_of m c main_arg1 (by decide)).trans <| (U2_of m c main_arg1 (by decide)).trans <| (U1_of m c main_arg1 (by decide)).trans rfl
theorem U3_main_arg2 (c : Dev nD) : U3 m c main_arg2 = m ((c : Thread nD τ).loc main_arg2) :=
  (U3_of m c main_arg2 (by decide)).trans <| (U2_of m c main_arg2 (by decide)).trans <| (U1_of m c main_arg2 (by decide)).trans rfl
theorem U3_main_arg3 (c : Dev nD) : U3 m c main_arg3 = m ((c : Thread nD τ).loc main_arg3) :=
  (U3_of m c main_arg3 (by decide)).trans <| (U2_of m c main_arg3 (by decide)).trans <| (U1_of m c main_arg3 (by decide)).trans rfl

/-! ## Each region's arrays at its exit -/

/-- The first region's arrays after it: the two inputs as entered, the output at its write-backs. -/
theorem hF0 (c : Dev nD) (w : Fin cfg0.W) : (dat0 (Va m) c).arrAt w cfg0.N = U1r m c (Pipeline.arrRef spec0 w) :=
  match w with
  | ⟨0, _⟩ => ((dat0 (Va m) c).arrAt_in 0 rfl _).trans ((A_eq0 (Va m) c 0).trans (U1_of m c (Pipeline.arrRef spec0 0) (by decide)).symm)
  | ⟨1, _⟩ => ((dat0 (Va m) c).arrAt_in 1 rfl _).trans ((A_eq0 (Va m) c 1).trans (U1_of m c (Pipeline.arrRef spec0 1) (by decide)).symm)
  | ⟨2, _⟩ => (U1_self m c).symm
theorem hrest0 (c : Dev nD) : ∀ b, b ∉ Finset.univ.image (Pipeline.arrRef spec0) → U1r m c b = Va m c b :=
  fun b hb => U1_of m c b fun e => hb (Finset.mem_image.mpr ⟨2, Finset.mem_univ _, by rw [e]⟩)

/-- The second region's arrays after it: the three inputs as entered, the output at its write-backs. -/
theorem hF1 (c : Dev nD) (w : Fin cfg1.W) : (dat1 (Vb m) c).arrAt w cfg1.N = U3r m c (Pipeline.arrRef spec1 w) :=
  match w with
  | ⟨0, _⟩ => ((dat1 (Vb m) c).arrAt_in 0 rfl _).trans ((A_eq1 (Vb m) c 0).trans (U3_of m c (Pipeline.arrRef spec1 0) (by decide)).symm)
  | ⟨1, _⟩ => ((dat1 (Vb m) c).arrAt_in 1 rfl _).trans ((A_eq1 (Vb m) c 1).trans (U3_of m c (Pipeline.arrRef spec1 1) (by decide)).symm)
  | ⟨2, _⟩ => ((dat1 (Vb m) c).arrAt_in 2 rfl _).trans ((A_eq1 (Vb m) c 2).trans (U3_of m c (Pipeline.arrRef spec1 2) (by decide)).symm)
  | ⟨3, _⟩ => (U3_self m c).symm
theorem hrest1 (c : Dev nD) : ∀ b, b ∉ Finset.univ.image (Pipeline.arrRef spec1) → U3r m c b = Vb m c b :=
  fun b hb => U3_of m c b fun e => hb (Finset.mem_image.mpr ⟨3, Finset.mem_univ _, by rw [e]⟩)

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (Va m) c
  | ⟨1, _⟩ => fun c => dat1 (Vb m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- The host reshape as a segment from the contents after the first region. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U1 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the final contents, the register at some state. -/
abbrev Tₙ (c : Dev nD) : sProp 𝕄 := iprop(StableHlo.held (c : Thread nD τ) (Pipeline.ucRefs τ sig) (U3 m c) ∗ ∃ r, prngReg c r)

/-! ## The regions as segments -/

set_option backward.isDefEq.respectTransparency.types false in
/-- The product region, entered from the launch contents and left with the product array in place. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ L lv 0 fun _ _ => rfl
  pre c := iprop(StableHlo.held (c : Thread nD τ) (Pipeline.ucRefs τ sig) (U0 m c) ∗ R c)
  post c := iprop(StableHlo.held (c : Thread nD τ) (Pipeline.ucRefs τ sig) (U1 m c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (U1r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The accumulating region, entered from the contents after the reshape and left with the result in place. The
    invariant takes the scoped rest and the generator register in and gives them back, the accumulator's last contents
    forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m) c).loose
  hwaits := Pipeline.hwaits_of_owed_zero _ _ _ _ L lv 1 fun _ _ => rfl
  pre c := iprop(StableHlo.held (c : Thread nD τ) (Pipeline.ucRefs τ sig) (U2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (Vb m) c
    unfold Pipeline.ΦA at h
    rw [show (pdats m 1 c).Φ 0 = (dat1 (Vb m) c).Φ 0 from rfl]
    iintro ⟨Hp, -, Hr⟩
    iapply h
    isplitl [Hr]; · iexact Hr
    iexact Hp
  hout c := by
    rw [Pipeline.ownSems0_none]
    have h := hout1 (Vb m) c
    unfold Pipeline.ΦA at h
    rw [show (pdats m 1 c).Φ (Fin.last _) = (dat1 (Vb m) c).Φ (Fin.last cfg1.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vb m c) (U3r m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .host (hseg1 m), .region (reg1 m) ]
theorem main_run (c : Dev nD) : main (F := F) c = Pipeline.Seg.run (segs m) := (main_chain c).trans (by chain_rfl)

set_option backward.isDefEq.respectTransparency.types false in
/-- THE RUN, at any float instance: from any memory with zero counters every weakly fair execution of @main
    terminates, nothing faulting; the final memory holds the result at what the second region's write-backs leave,
    and each argument as launched. -/
theorem run_main : θ_run defs (onTc (τ := τ) (main (F := F))) ⟨m, fun _ => 0, ρ⟩ (fun r => ∀ c : Dev nD,
      r.2.mem ((c.tc : Thread nD τ).loc main_v2) = resArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U3 m c b)
    (hfin := fun c s' => by
      iintro ⟨⟨Hh, -⟩, HSI⟩
      unfold StableHlo.held
      imodintro
      iapply (pointsTo_read_all (Pipeline.ucRefs τ sig) (fun b => (((c : Thread nD τ)).1, b)) (U3 m c) s')
      isplitl [Hh] <;> iassumption)
    (hQ := fun s h c =>
      ⟨(h c _ (mem_uc main_v2 (by decide))).trans (U3_self m c),
       (h c _ (mem_uc main_arg0 (by decide))).trans (U3_main_arg0 m c),
       (h c _ (mem_uc main_arg1 (by decide))).trans (U3_main_arg1 m c),
       (h c _ (mem_uc main_arg2 (by decide))).trans (U3_main_arg2 m c),
       (h c _ (mem_uc main_arg3 (by decide))).trans (U3_main_arg3 m c)⟩)

end Cert.Kernel.Hand

end
-- ==== Proof.KiRegion0.lean ====
/-
  The first kernel region: the elementwise product of the mask and the weight, one block of 512 rows at each of
  the four grid points. Each point loads its two input blocks whole, multiplies them entry by entry, narrows the
  product and stores it whole into the output block; nothing is kept between points.
  Stated at the contents `V` the core's buffers hold when the region is entered.
-/
import proofs.«161340_j23029614641364_1_alg».proof.Proof.Gen.KernelIdeal.Launch
import proofs.«161340_j23029614641364_1_alg».proof.Proof.Gen.KernelIdeal.Skeleton
import proofs.«161340_j23029614641364_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: that part of the window's array, as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window is fetched at every point and its block never moves under the body, so its staging buffer holds
    the block of the array whenever the body runs. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 512 × 2048 block: the one rectangle every load and store of this body goes through. -/
abbrev rAll0 : Rect S512x2048 := Rect.unit (s := S512x2048) ![0, 0] S512x2048.size inb_S512x2048_S512x2048_0_0

/-- What the body leaves in the output block, from its two input blocks: the narrowed entrywise product, stored whole. -/
def prodBlk (x0 x1 : Vec F S512x2048 .f32) : Vec F S512x2048 .bf16 :=
  View.canon [⟨rAll0, k0_pay1 (View.ld x0 rAll0) (View.ld x1 rAll0)⟩]

/-- The one store covers the block. -/
theorem cover_prod (p0 : Vec F S512x2048 .bf16) (y : S512x2048.Idx) :
    ∃ pc ∈ ([⟨rAll0, p0⟩] : List (View.Piece (Elt F) S512x2048 .bf16)), y ∈ pc.1.set :=
  View.cover_of_tiled [⟨rAll0, p0⟩] S512x2048.size (by rfl) y

set_option maxHeartbeats 1000000 in
/-- The body on whole staging buffers: the inputs keep their contents, the output ends at the product block. -/
theorem sound_kernel0 (c : Dev nD) (E : Set ℕ) (i : grid0.Coords) (arg1 : Memref sig .tc .vmem S512x2048 .f32) (harg1 : arg1.IsWhole)
    (arg2 : Memref sig .tc .vmem S512x2048 .f32) (harg2 : arg2.IsWhole) (arg3 : Memref sig .tc .vmem S512x2048 .bf16) (harg3 : arg3.IsWhole)
    (x0 x1 : Vec F S512x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prodBlk x0 x1)) -∗ K ⟨⟩))
      ⊢ wp frame (wpE (defs₀ (F := F)) Variants.none c none) E (cc0__mul_mask_kernel i arg1 harg1 arg2 harg2 arg3 harg3) K := by
  simp only [cc0__mul_mask_kernel_eq_skeleton]; unfold cc0__mul_mask_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_prod _)

/-- The region's proof data on core `c`: the arrays as found; after the body each input buffer at its block and the
    output buffer at the product of the two input blocks; nothing owed, nothing kept between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => prodBlk (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = prodBlk (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: its input buffers hold their blocks, so the triple above applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiRun1.lean ====
/-
  The second kernel region's body, run once for each of its two control cases. The grid is 32 row blocks by 2
  halves of the contracted axis. On the first half (`k = 0`) the body clears the accumulator, adds the half's
  matrix product into it and stores nothing into the output block. On the second half (`k = 1`) it adds the
  half's product into the accumulator as the first half left it and stores accumulator plus bias into the output.
  Each run is stated on whole staging buffers; what it leaves in a buffer it stores into is a list of pieces,
  last store first, found when the run is carried out.
-/
import proofs.«161340_j23029614641364_1_alg».proof.Proof.Gen.KernelIdeal.Launch
import proofs.«161340_j23029614641364_1_alg».proof.Proof.Gen.KernelIdeal.Skeleton
import proofs.«161340_j23029614641364_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body (clear the accumulator), as a condition on the grid coordinates. -/
abbrev cond1_0 (i : grid1.Coords) : Prop := (Scalar.cmpi .ne (Scalar.extui (Scalar.cmpi .eq (BitVec.ofNat 32 (i 1).val) 0#32)) 0#32) = 1#1
/-- It holds exactly on the first half of the contracted axis: the even points. -/
theorem hcond1_0 : ∀ t : Fin cfg1.N, cond1_0 (grid1.coords t) ↔ t.val % 2 = 0 :=
  (by decide +kernel : ∀ t : Fin grid1.N, cond1_0 (grid1.coords t) ↔ t.val % 2 = 0)
/-- The second conditional (store the output), as a condition on the grid coordinates. -/
abbrev cond1_1 (i : grid1.Coords) : Prop := k1_cond2 i = 1#1
/-- It holds exactly on the second half: the odd points. -/
theorem hcond1_1 : ∀ t : Fin cfg1.N, cond1_1 (grid1.coords t) ↔ t.val % 2 = 1 :=
  (by decide +kernel : ∀ t : Fin grid1.N, cond1_1 (grid1.coords t) ↔ t.val % 2 = 1)

set_option maxHeartbeats 1000000 in
/-- FIRST HALF. The inputs and the output block keep their contents; the accumulator, found at anything, ends with
    the pieces `LS` written: the cleared block, then the half's product added to it. -/
noncomputable def kernelRun1_E (c : Dev nD) (i : grid1.Coords) (arg2 : Memref sig .tc .vmem S512x1024 .f32) (harg2 : arg2.IsWhole)
    (arg3 : Memref sig .tc .vmem S2048x1024 .bf16) (harg3 : arg3.IsWhole) (arg4 : Memref sig .tc .vmem S1x2048 .f32) (harg4 : arg4.IsWhole)
    (arg5 : Memref sig .tc .vmem S512x2048 .f32) (harg5 : arg5.IsWhole) (arg6 : Memref sig .tc .vmem S512x2048 .f32) (harg6 : arg6.IsWhole)
    (hc0 : cond1_0 i) (hc1 : ¬cond1_1 i)
    (x0 : Vec F S512x1024 .f32) (x1 : Vec F S2048x1024 .bf16) (x2 : Vec F S1x2048 .f32) :
    { LS : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg2 harg2 arg3 harg3 arg4 harg4 arg5 harg5 arg6 harg6) K } := by
  refine ⟨?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- SECOND HALF. The inputs keep their contents; the accumulator, found at `xs`, ends with the pieces `LS` written
    (the half's product added to `xs`), the output block, found at anything, with the pieces `L3` (accumulator plus bias). -/
noncomputable def kernelRun1_O (c : Dev nD) (i : grid1.Coords) (arg2 : Memref sig .tc .vmem S512x1024 .f32) (harg2 : arg2.IsWhole)
    (arg3 : Memref sig .tc .vmem S2048x1024 .bf16) (harg3 : arg3.IsWhole) (arg4 : Memref sig .tc .vmem S1x2048 .f32) (harg4 : arg4.IsWhole)
    (arg5 : Memref sig .tc .vmem S512x2048 .f32) (harg5 : arg5.IsWhole) (arg6 : Memref sig .tc .vmem S512x2048 .f32) (harg6 : arg6.IsWhole)
    (hc0 : ¬cond1_0 i) (hc1 : cond1_1 i)
    (x0 : Vec F S512x1024 .f32) (x1 : Vec F S2048x1024 .bf16) (x2 : Vec F S1x2048 .f32) (xs : Vec F S512x2048 .f32) :
    Σ' (L3 : List (View.Piece (Elt F) S512x2048 .f32)), { LS : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc1__matmul_kernel i arg2 harg2 arg3 harg3 arg4 harg4 arg5 harg5 arg6 harg6) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KiRegion1.lean ====
/-
  The second kernel region: the matrix product accumulated over the two halves of the contracted axis, per block of
  512 rows. The accumulator lives in a scratch buffer that the body carries from the first half's point to the
  second half's; the output block is stored only at the second half's point and written back there.
  Stated at the contents `V` the core's buffers hold when the region is entered: what the accumulator and the output
  block hold after each grid point, the invariant that carries the accumulator between points, the proof data and
  the body obligation.
-/
import proofs.«161340_j23029614641364_1_alg».proof.Proof.KiRun1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: that part of the window's array, as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the block of its array whenever the body runs, fetched at that point or
    not: where it is not fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- On the first half the body stores nothing into the output block, -/
theorem idleAt1_3_E : ∀ t : Fin cfg1.N, cond1_0 (grid1.coords t) → ¬cond1_1 (grid1.coords t) → cfg1.idle 3 (grid1.coords t) = true := by decide +kernel
/-- and the block is not written back there. -/
theorem noFlush1_3_E : ∀ t : Fin cfg1.N, cond1_0 (grid1.coords t) → ¬cond1_1 (grid1.coords t) → (cfg1.win 3).flush t = false := by decide +kernel
/-- On the second half it stores the block. -/
theorem liveAt1_3_O : ∀ t : Fin cfg1.N, ¬cond1_0 (grid1.coords t) → cond1_1 (grid1.coords t) → cfg1.idle 3 (grid1.coords t) = false := by decide +kernel

/-! ## The staging buffers at a point, and the scratch -/

abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x2048 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S512x2048 .f32 := Memref.whole cc1_scratch0
/-- The views through which the accumulator's and the output block's contents are stated. -/
abbrev VS1 : View sig .tc .vmem S512x2048 .f32 := scM1.view
abbrev VO1 : View sig .tc .vmem S512x2048 .f32 := (Memref.whole cc1_stg3_0 : Memref sig .tc .vmem S512x2048 .f32).view

/-! ## What each case leaves: the run's pieces read back -/

section Cases
variable (c : Dev nD) (i : grid1.Coords) (arg2 : Memref sig .tc .vmem S512x1024 .f32) (harg2 : arg2.IsWhole)
    (arg3 : Memref sig .tc .vmem S2048x1024 .bf16) (harg3 : arg3.IsWhole) (arg4 : Memref sig .tc .vmem S1x2048 .f32) (harg4 : arg4.IsWhole)
    (arg5 : Memref sig .tc .vmem S512x2048 .f32) (harg5 : arg5.IsWhole) (arg6 : Memref sig .tc .vmem S512x2048 .f32) (harg6 : arg6.IsWhole)
    (x0 : Vec F S512x1024 .f32) (x1 : Vec F S2048x1024 .bf16) (x2 : Vec F S1x2048 .f32)

/-- First half: the accumulator's pieces tile it. -/
theorem scover1_E (hc0 : cond1_0 i) (hc1 : ¬cond1_1 i) (y : S512x2048.Idx) :
    ∃ pc ∈ (kernelRun1_E (F := F) c i arg2 harg2 arg3 harg3 arg4 harg4 arg5 harg5 arg6 harg6 hc0 hc1 x0 x1 x2).1, y ∈ pc.1.set :=
  View.cover_of_tiledL (kernelRun1_E c i arg2 harg2 arg3 harg3 arg4 harg4 arg5 harg5 arg6 harg6 hc0 hc1 x0 x1 x2).1 S512x2048.size (by sl_kernel_rfl) y
/-- First half: what the accumulator holds afterwards. -/
def sout1_E (hc0 : cond1_0 i) (hc1 : ¬cond1_1 i) : Vec F S512x2048 .f32 :=
  VS1.read (Elt F) (VS1.writes (Elt F) VS1.junk (kernelRun1_E c i arg2 harg2 arg3 harg3 arg4 harg4 arg5 harg5 arg6 harg6 hc0 hc1 x0 x1 x2).1)

variable (xs : Vec F S512x2048 .f32)
/-- Second half: the accumulator's pieces tile it, -/
theorem scover1_O (hc0 : ¬cond1_0 i) (hc1 : cond1_1 i) (y : S512x2048.Idx) :
    ∃ pc ∈ (kernelRun1_O (F := F) c i arg2 harg2 arg3 harg3 arg4 harg4 arg5 harg5 arg6 harg6 hc0 hc1 x0 x1 x2 xs).2.1, y ∈ pc.1.set :=
  View.cover_of_tiledL (kernelRun1_O c i arg2 harg2 arg3 harg3 arg4 harg4 arg5 harg5 arg6 harg6 hc0 hc1 x0 x1 x2 xs).2.1 S512x2048.size (by sl_kernel_rfl) y
/-- what it holds afterwards, -/
def sout1_O (hc0 : ¬cond1_0 i) (hc1 : cond1_1 i) : Vec F S512x2048 .f32 :=
  VS1.read (Elt F) (VS1.writes (Elt F) VS1.junk (kernelRun1_O c i arg2 harg2 arg3 harg3 arg4 harg4 arg5 harg5 arg6 harg6 hc0 hc1 x0 x1 x2 xs).2.1)
/-- the output block's pieces tile it, -/
theorem cover1_O (hc0 : ¬cond1_0 i) (hc1 : cond1_1 i) (y : S512x2048.Idx) :
    ∃ pc ∈ (kernelRun1_O (F := F) c i arg2 harg2 arg3 harg3 arg4 harg4 arg5 harg5 arg6 harg6 hc0 hc1 x0 x1 x2 xs).1, y ∈ pc.1.set :=
  View.cover_of_tiledL (kernelRun1_O c i arg2 harg2 arg3 harg3 arg4 harg4 arg5 harg5 arg6 harg6 hc0 hc1 x0 x1 x2 xs).1 S512x2048.size (by sl_kernel_rfl) y
/-- and what the output block holds afterwards. -/
def out1_O (hc0 : ¬cond1_0 i) (hc1 : cond1_1 i) : Vec F S512x2048 .f32 :=
  VO1.read (Elt F) (VO1.writes (Elt F) VO1.junk (kernelRun1_O c i arg2 harg2 arg3 harg3 arg4 harg4 arg5 harg5 arg6 harg6 hc0 hc1 x0 x1 x2 xs).1)
end Cases

/-! ## The accumulator and the output block after each point -/

theorem cfg1_N : cfg1.N = 64 := N_1

/-- After a first-half point: the accumulator cleared, then the half's product added. -/
def accEv (c : Dev nD) (n : ℕ) (hn : n < cfg1.N) (h0 : n % 2 = 0) : Vec F S512x2048 .f32 :=
  sout1_E c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩)
    scM1 (Memref.isWhole_whole _) (iblk1 V c 0 ⟨n, hn⟩) (iblk1 V c 1 ⟨n, hn⟩) (iblk1 V c 2 ⟨n, hn⟩)
    ((hcond1_0 ⟨n, hn⟩).mpr h0) (fun h => by have := (hcond1_1 ⟨n, hn⟩).mp h; (try dsimp only at this); omega)

/-- After a second-half point: the half's product added to what the first half's point left. -/
def accOd (c : Dev nD) (n : ℕ) (hn : n < cfg1.N) (h0 : ¬n % 2 = 0) : Vec F S512x2048 .f32 :=
  sout1_O c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩)
    scM1 (Memref.isWhole_whole _) (iblk1 V c 0 ⟨n, hn⟩) (iblk1 V c 1 ⟨n, hn⟩) (iblk1 V c 2 ⟨n, hn⟩)
    (accEv V c (n - 1) (by omega) (by omega))
    (fun h => h0 ((hcond1_0 ⟨n, hn⟩).mp h)) ((hcond1_1 ⟨n, hn⟩).mpr (by (try dsimp only); omega))

/-- The accumulator after point `n`. -/
def accAt (c : Dev nD) (n : ℕ) (hn : n < cfg1.N) : Vec F S512x2048 .f32 :=
  if h0 : n % 2 = 0 then accEv V c n hn h0 else accOd V c n hn h0

/-- The output block's staging buffer after a second-half point: accumulator plus bias. -/
def outOd (c : Dev nD) (n : ℕ) (hn : n < cfg1.N) (h0 : ¬n % 2 = 0) : Vec F S512x2048 .f32 :=
  out1_O c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩)
    scM1 (Memref.isWhole_whole _) (iblk1 V c 0 ⟨n, hn⟩) (iblk1 V c 1 ⟨n, hn⟩) (iblk1 V c 2 ⟨n, hn⟩)
    (accEv V c (n - 1) (by omega) (by omega))
    (fun h => h0 ((hcond1_0 ⟨n, hn⟩).mp h)) ((hcond1_1 ⟨n, hn⟩).mpr (by (try dsimp only); omega))

/-- The output block's staging buffer after point `n`; at a first-half point nothing is stored and nothing reads
    this value (the window is idle there and not written back). -/
def outAt (c : Dev nD) (n : ℕ) (hn : n < cfg1.N) : Vec F S512x2048 .f32 :=
  if h0 : n % 2 = 0 then VO1.read (Elt F) (VO1.writes (Elt F) VO1.junk []) else outOd V c n hn h0

theorem accAt_even (c : Dev nD) (n : ℕ) (hn : n < cfg1.N) (h0 : n % 2 = 0) : accAt V c n hn = accEv V c n hn h0 := dif_pos h0
theorem accAt_odd (c : Dev nD) (n : ℕ) (hn : n < cfg1.N) (h0 : ¬n % 2 = 0) : accAt V c n hn = accOd V c n hn h0 := dif_neg h0
theorem outAt_odd (c : Dev nD) (n : ℕ) (hn : n < cfg1.N) (h0 : ¬n % 2 = 0) : outAt V c n hn = outOd V c n hn h0 := dif_neg h0

/-! ## The invariant: the accumulator carried between points -/

/-- The scoped buffers of the first region's staging, each at some contents, and the generator register at some state:
    what the body never touches. -/
def restB (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ r, prngReg c r))

/-- What the region hands the kernel is the accumulator at anything beside that rest, -/
theorem PhiA1_split (c : Dev nD) : (Pipeline.ΦA spec1 c : sProp 𝕄) ⊢ iprop((∃ d, owns (c : Thread nD τ) scM1 fullShare d) ∗ restB (F := F) c) := by
  unfold Pipeline.ΦA restB; rw [scopedRest1_eq]; simp only [scM1, owns_whole]
  iintro ⟨⟨H1, H2, H3, H4, H5, H6, HS⟩, Hg⟩
  isplitl [HS]; · iexact HS
  isplitl [H1]; · iexact H1
  isplitl [H2]; · iexact H2
  isplitl [H3]; · iexact H3
  isplitl [H4]; · iexact H4
  isplitl [H5]; · iexact H5
  isplitl [H6]; · iexact H6
  iexact Hg
/-- and conversely. -/
theorem PhiA1_join (c : Dev nD) : iprop((∃ d, owns (c : Thread nD τ) scM1 fullShare d) ∗ restB (F := F) c) ⊢ (Pipeline.ΦA spec1 c : sProp 𝕄) := by
  unfold Pipeline.ΦA restB; rw [scopedRest1_eq]; simp only [scM1, owns_whole]
  iintro ⟨HS, H1, H2, H3, H4, H5, H6, Hg⟩
  isplitr [Hg]
  · isplitl [H1]; · iexact H1
    isplitl [H2]; · iexact H2
    isplitl [H3]; · iexact H3
    isplitl [H4]; · iexact H4
    isplitl [H5]; · iexact H5
    isplitl [H6]; · iexact H6
    iexact HS
  iexact Hg

/-- The invariant before position `n`: before the first point what the region hands the kernel; afterwards the
    accumulator at what the point before left in it, beside the untouched rest. -/
def PhiS (c : Dev nD) : (n : ℕ) → n ≤ cfg1.N → sProp 𝕄
  | 0, _ => Pipeline.ΦA spec1 c
  | n + 1, hn => iprop(owns (c : Thread nD τ) scM1 fullShare (accAt V c n hn) ∗ restB (F := F) c)

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(owns (c : Thread nD τ) scM1 fullShare (accAt V c n hn) ∗ restB (F := F) c) := rfl
theorem PhiS_pos (c : Dev nD) (n : ℕ) (h : n ≤ cfg1.N) (hz : n ≠ 0) :
    PhiS V c n h = iprop(owns (c : Thread nD τ) scM1 fullShare (accAt V c (n - 1) (by omega)) ∗ restB (F := F) c) := by
  cases n with
  | zero => exact absurd rfl hz
  | succ n => rfl

/-! ## The proof data -/

/-- The region's proof data on core `c`: the arrays as found; after the body each input buffer at its block and the
    output buffer at `outAt`; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. Its input buffers hold their blocks; the point's parity says which case it is in. On the
    first half the accumulator is handed over at anything (from the region's entry, or forgetting what the row block
    before left) and taken back at the cleared-then-added value, the output block untouched; on the second half it is
    handed over at what the first half's point left and taken back with the second product added, the output block
    at accumulator plus bias. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 64 := lt_of_lt_of_eq t.isLt cfg1_N
  by_cases h0 : t.val % 2 = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3_E t hc0 hc1) (noFlush1_3_E t hc0 hc1)]
    rw [accAt_even V c t.val t.isLt h0]
    unfold accEv sout1_E; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := (PhiA1_split (F := F) c) $$ HΦ
      icases HΦ' with ⟨HS0, Hg⟩
      iapply ((kernelRun1_E c (grid1.coords t) _ _ _ _ _ _ _ _ _ _ hc0 hc1 (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover1_E c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HS0, Hg⟩, Ho, ⟨%d0, H0⟩, ⟨%d1, H1⟩, ⟨%d2, H2⟩, ⟨%d3, H3⟩⟩
      iapply ((kernelRun1_E c (grid1.coords t) _ _ _ _ _ _ _ _ _ _ hc0 hc1 (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover1_E c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hc0 : ¬cond1_0 (grid1.coords t) := fun h => h0 ((hcond1_0 t).mp h)
    have hc1 : cond1_1 (grid1.coords t) := (hcond1_1 t).mpr (by omega)
    have hz : t.val ≠ 0 := fun e => h0 (by rw [e])
    rw [show (dat1 V c).leavesExact 3 t = owns (c : Thread nD τ) (ms1_3 t) fullShare ((dat1 V c).after 3 t) from by
      unfold Dat.leavesExact; rw [liveAt1_3_O t hc0 hc1], after1_3]
    rw [accAt_odd V c t.val t.isLt h0, outAt_odd V c t.val t.isLt h0]
    rw [PhiS_castSucc V c t, PhiS_pos V c _ _ hz, accAt_even V c (t.val - 1) (by omega) (by omega)]
    unfold accOd outOd sout1_O out1_O; (try dsimp only)
    iintro ⟨⟨HS0, Hg⟩, Ho, ⟨%d0, H0⟩, ⟨%d1, H1⟩, ⟨%d2, H2⟩, ⟨%d3, H3⟩⟩
    iapply ((kernelRun1_O c (grid1.coords t) _ _ _ _ _ _ _ _ _ _ hc0 hc1 (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hg]
    · isplitl [HS0]
      · unfold owns; iexists _; isplitr
        swap; · iexact HS0
        ipureintro; exact View.read_writes_of_cover _ _ _ _ _ (scover1_O c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_O c _ _ _ _ _ _ _ _ _ _ _ _ _ _ _ _ _)

/-- The body obligation of the second region, at every point. -/
theorem body_obligation1 (c : Dev nD) : BodyObligation (dat1 (F := F) V c) (defs₀ (F := F)) Variants.none () Set.univ := fun t => by
  rw [bigSep_W1, bigSep_W1]
  exact sound_body1 V c t

/-- What the region hands the kernel is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives that back, the accumulator's contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := cfg1_N; omega)]
  iintro ⟨HS0, Hg⟩
  iapply (PhiA1_join (F := F) c)
  isplitl [HS0]
  · iexists _; iexact HS0
  iexact Hg

end Cert.KernelIdeal.Hand

end
-- ==== Proof.KiRun.lean ====
/-
  The whole run: the product region, the host reshape of the bias, the accumulating region. Between two items the
  core's unscoped buffers are held whole at contents named here — the launch memory; then the product array in place
  of the first result; then the reshaped bias; then the second region's output in place of the final result — beside
  the generator register and the core owing nothing. Each region is entered from the contents before it: its arrays
  are split out of the unscoped buffers, run through the pipeline, and put back at what the write-backs leave.
  Every weakly fair execution from the launch memory terminates; the final memory holds the result at what the
  second region's write-backs leave and every argument as launched.
-/
import proofs.«161340_j23029614641364_1_alg».proof.Proof.KiRegion0
import proofs.«161340_j23029614641364_1_alg».proof.Proof.KiRegion1
import proofs.«161340_j23029614641364_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries of @main -/

/-- At launch. -/
abbrev U0 (c : Dev nD) : Valuation τ sig (Elt F) := fun b => m (c, b)
abbrev Va (c : Dev nD) (b : Ref sig .tc) : Buf (Elt F) ((c : Thread nD τ).loc b) := U0 m c b
/-- What the first region's write-backs leave in its output array: the product of mask and weight. -/
def mwArr (c : Dev nD) : Buf (Elt F) ((c : Thread nD τ).loc main_v0) := (dat0 (Va m) c).arrAt 2 cfg0.N
/-- After the first region. -/
abbrev U1 (c : Dev nD) : Valuation τ sig (Elt F) := Function.update (U0 m c) main_v0 (mwArr m c)
abbrev U1r (c : Dev nD) (b : Ref sig .tc) : Buf (Elt F) ((c : Thread nD τ).loc b) := U1 m c b
/-- After the host reshape. -/
abbrev U2 (c : Dev nD) : Valuation τ sig (Elt F) := StableHlo.after hostOps1 (U1 m c)
abbrev Vb (c : Dev nD) (b : Ref sig .tc) : Buf (Elt F) ((c : Thread nD τ).loc b) := U2 m c b
/-- What the second region's write-backs leave in its output array: the result. -/
def resArr (c : Dev nD) : Buf (Elt F) ((c : Thread nD τ).loc main_v2) := (dat1 (Vb m) c).arrAt 3 cfg1.N
/-- After the second region. -/
abbrev U3 (c : Dev nD) : Valuation τ sig (Elt F) := Function.update (U2 m c) main_v2 (resArr m c)
abbrev U3r (c : Dev nD) (b : Ref sig .tc) : Buf (Elt F) ((c : Thread nD τ).loc b) := U3 m c b

theorem U1_of (c : Dev nD) (r : Ref sig .tc) (h : r ≠ main_v0) : U1 m c r = U0 m c r := by
  simp only [U1, Function.update_of_ne (StableHlo.devRef_ne_of_ne h : (Proc.devRef .tc r : DevRef τ sig) ≠ Proc.devRef .tc main_v0)]
theorem U1_self (c : Dev nD) : U1 m c main_v0 = mwArr m c := Function.update_self ..
theorem U2_of (c : Dev nD) (r : Ref sig .tc) (h : r ∉ hostOps1_W) : U2 m c r = U1 m c r :=
  StableHlo.after_of_writes_sub hostOps1 _ hostOps1_writes h
theorem U3_of (c : Dev nD) (r : Ref sig .tc) (h : r ≠ main_v2) : U3 m c r = U2 m c r := by
  simp only [U3, Function.update_of_ne (StableHlo.devRef_ne_of_ne h : (Proc.devRef .tc r : DevRef τ sig) ≠ Proc.devRef .tc main_v2)]
theorem U3_self (c : Dev nD) : U3 m c main_v2 = resArr m c := Function.update_self ..

/-- No item writes an argument. -/
theorem U3_main_arg0 (c : Dev nD) : U3 m c main_arg0 = m ((c : Thread nD τ).loc main_arg0) :=
  (U3_of m c main_arg0 (by decide)).trans <| (U2_of m c main_arg0 (by decide)).trans <| (U1_of m c main_arg0 (by decide)).trans rfl
theorem U3_main_arg1 (c : Dev nD) : U3 m c main_arg1 = m ((c : Thread nD τ).loc main_arg1) :=
  (U3_of m c main_arg1 (by decide)).trans <| (U2_of m c main_arg1 (by decide)).trans <| (U1_of m c main_arg1 (by decide)).trans rfl
theorem U3_main_arg2 (c : Dev nD) : U3 m c main_arg2 = m ((c : Thread nD τ).loc main_arg2) :=
  (U3_of m c main_arg2 (by decide)).trans <| (U2_of m c main_arg2 (by decide)).trans <| (U1_of m c main_arg2 (by decide)).trans rfl
theorem U3_main_arg3 (c : Dev nD) : U3 m c main_arg3 = m ((c : Thread nD τ).loc main_arg3) :=
  (U3_of m c main_arg3 (by decide)).trans <| (U2_of m c main_arg3 (by decide)).trans <| (U1_of m c main_arg3 (by decide)).trans rfl

/-! ## Each region's arrays at its exit -/

/-- The first region's arrays after it: the two inputs as entered, the output at its write-backs. -/
theorem hF0 (c : Dev nD) (w : Fin cfg0.W) : (dat0 (Va m) c).arrAt w cfg0.N = U1r m c (Pipeline.arrRef spec0 w) :=
  match w with
  | ⟨0, _⟩ => ((dat0 (Va m) c).arrAt_in 0 rfl _).trans ((A_eq0 (Va m) c 0).trans (U1_of m c (Pipeline.arrRef spec0 0) (by decide)).symm)
  | ⟨1, _⟩ => ((dat0 (Va m) c).arrAt_in 1 rfl _).trans ((A_eq0 (Va m) c 1).trans (U1_of m c (Pipeline.arrRef spec0 1) (by decide)).symm)
  | ⟨2, _⟩ => (U1_self m c).symm
theorem hrest0 (c : Dev nD) : ∀ b, b ∉ Finset.univ.image (Pipeline.arrRef spec0) → U1r m c b = Va m c b :=
  fun b hb => U1_of m c b fun e => hb (Finset.mem_image.mpr ⟨2, Finset.mem_univ _, by rw [e]⟩)

/-- The second region's arrays after it: the three inputs as entered, the output at its write-backs. -/
theorem hF1 (c : Dev nD) (w : Fin cfg1.W) : (dat1 (Vb m) c).arrAt w cfg1.N = U3r m c (Pipeline.arrRef spec1 w) :=
  match w with
  | ⟨0, _⟩ => ((dat1 (Vb m) c).arrAt_in 0 rfl _).trans ((A_eq1 (Vb m) c 0).trans (U3_of m c (Pipeline.arrRef spec1 0) (by decide)).symm)
  | ⟨1, _⟩ => ((dat1 (Vb m) c).arrAt_in 1 rfl _).trans ((A_eq1 (Vb m) c 1).trans (U3_of m c (Pipeline.arrRef spec1 1) (by decide)).symm)
  | ⟨2, _⟩ => ((dat1 (Vb m) c).arrAt_in 2 rfl _).trans ((A_eq1 (Vb m) c 2).trans (U3_of m c (Pipeline.arrRef spec1 2) (by decide)).symm)
  | ⟨3, _⟩ => (U3_self m c).symm
theorem hrest1 (c : Dev nD) : ∀ b, b ∉ Finset.univ.image (Pipeline.arrRef spec1) → U3r m c b = Vb m c b :=
  fun b hb => U3_of m c b fun e => hb (Finset.mem_image.mpr ⟨3, Finset.mem_univ _, by rw [e]⟩)

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (Va m) c
  | ⟨1, _⟩ => fun c => dat1 (Vb m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- The host reshape as a segment from the contents after the first region. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U1 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the final contents, the register at some state. -/
abbrev Tₙ (c : Dev nD) : sProp 𝕄 := iprop(StableHlo.held (c : Thread nD τ) (Pipeline.ucRefs τ sig) (U3 m c) ∗ ∃ r, prngReg c r)

/-! ## The regions as segments -/

set_option backward.isDefEq.respectTransparency.types false in
/-- The product region, entered from the launch contents and left with the product array in place. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ L lv 0 fun _ _ => rfl
  pre c := iprop(StableHlo.held (c : Thread nD τ) (Pipeline.ucRefs τ sig) (U0 m c) ∗ R c)
  post c := iprop(StableHlo.held (c : Thread nD τ) (Pipeline.ucRefs τ sig) (U1 m c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (U1r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The accumulating region, entered from the contents after the reshape and left with the result in place. The
    invariant takes the scoped rest and the generator register in and gives them back, the accumulator's last contents
    forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m) c).loose
  hwaits := Pipeline.hwaits_of_owed_zero _ _ _ _ L lv 1 fun _ _ => rfl
  pre c := iprop(StableHlo.held (c : Thread nD τ) (Pipeline.ucRefs τ sig) (U2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (Vb m) c
    unfold Pipeline.ΦA at h
    rw [show (pdats m 1 c).Φ 0 = (dat1 (Vb m) c).Φ 0 from rfl]
    iintro ⟨Hp, -, Hr⟩
    iapply h
    isplitl [Hr]; · iexact Hr
    iexact Hp
  hout c := by
    rw [Pipeline.ownSems0_none]
    have h := hout1 (Vb m) c
    unfold Pipeline.ΦA at h
    rw [show (pdats m 1 c).Φ (Fin.last _) = (dat1 (Vb m) c).Φ (Fin.last cfg1.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vb m c) (U3r m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .host (hseg1 m), .region (reg1 m) ]
theorem main_run (c : Dev nD) : main (F := F) c = Pipeline.Seg.run (segs m) := (main_chain c).trans (by chain_rfl)

set_option backward.isDefEq.respectTransparency.types false in
/-- THE RUN, at any float instance: from any memory with zero counters every weakly fair execution of @main
    terminates, nothing faulting; the final memory holds the result at what the second region's write-backs leave,
    and each argument as launched. -/
theorem run_main : θ_run defs (onTc (τ := τ) (main (F := F))) ⟨m, fun _ => 0, ρ⟩ (fun r => ∀ c : Dev nD,
      r.2.mem ((c.tc : Thread nD τ).loc main_v2) = resArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U3 m c b)
    (hfin := fun c s' => by
      iintro ⟨⟨Hh, -⟩, HSI⟩
      unfold StableHlo.held
      imodintro
      iapply (pointsTo_read_all (Pipeline.ucRefs τ sig) (fun b => (((c : Thread nD τ)).1, b)) (U3 m c) s')
      isplitl [Hh] <;> iassumption)
    (hQ := fun s h c =>
      ⟨(h c _ (mem_uc main_v2 (by decide))).trans (U3_self m c),
       (h c _ (mem_uc main_arg0 (by decide))).trans (U3_main_arg0 m c),
       (h c _ (mem_uc main_arg1 (by decide))).trans (U3_main_arg1 m c),
       (h c _ (mem_uc main_arg2 (by decide))).trans (U3_main_arg2 m c),
       (h c _ (mem_uc main_arg3 (by decide))).trans (U3_main_arg3 m c)⟩)

end Cert.KernelIdeal.Hand

end
-- ==== Proof.KiPieces.lean ====
/-
  What each body run leaves in a buffer, read back as a value. A run's stores into a buffer are recorded as a list
  of pieces (rectangle, payload), last store first; read through any view, a covering list is its canon. Every load
  and every store of these two bodies goes through the whole buffer (the unit rectangle at zero offsets), so a load
  reads the buffer's contents, a store that comes last leaves its payload, and a load of what one whole store left
  reads that store's payload. Hence, generic in the float instance:
    the first region's block is the narrowed entrywise product of its two input blocks;
    on the first half of the contracted axis the accumulator is cleared, read back, and ends at the half's product
      added to the cleared block;
    on the second half the accumulator, found at `xs`, ends at the half's product added to `xs`, and the output
      block at that sum, read back, plus the broadcast bias.
-/
import proofs.«161340_j23029614641364_1_alg».proof.Proof.KiRegion0
import proofs.«161340_j23029614641364_1_alg».proof.Proof.KiRegion1
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets of every rectangle here are zero on both axes. -/
theorem hz00 : (![0, 0] : Fin 2 → Nat) = fun _ => 0 := funext fun a => by fin_cases a <;> rfl

/-- The first region's block: its one store covers the block, and the two loads under its payload read the input
    blocks whole, so the block is the narrowed entrywise product of the two input blocks. -/
theorem prodBlk_eq (x0 x1 : Vec F S512x2048 .f32) : prodBlk x0 x1 = k0_pay1 x0 x1 := by
  unfold prodBlk
  rw [View.canon_unit_zero hz00]
  simp only [View.ld_unit_zero (S := S512x2048) hz00]

section Cases
variable (c : Dev nD) (i : grid1.Coords) (arg2 : Memref sig .tc .vmem S512x1024 .f32) (harg2 : arg2.IsWhole)
    (arg3 : Memref sig .tc .vmem S2048x1024 .bf16) (harg3 : arg3.IsWhole) (arg4 : Memref sig .tc .vmem S1x2048 .f32) (harg4 : arg4.IsWhole)
    (arg5 : Memref sig .tc .vmem S512x2048 .f32) (harg5 : arg5.IsWhole) (arg6 : Memref sig .tc .vmem S512x2048 .f32) (harg6 : arg6.IsWhole)
    (x0 : Vec F S512x1024 .f32) (x1 : Vec F S2048x1024 .bf16) (x2 : Vec F S1x2048 .f32)

/-- First half: two whole stores into the accumulator, the cleared block and then the update. The later one covers,
    so the accumulator ends at its payload; the accumulator it was computed from is a load of what the clearing store
    left, which is the cleared block; the two input blocks are loaded whole. -/
theorem sout1_E_eq (hc0 : cond1_0 i) (hc1 : ¬cond1_1 i) :
    sout1_E c i arg2 harg2 arg3 harg3 arg4 harg4 arg5 harg5 arg6 harg6 x0 x1 x2 hc0 hc1 = k1_pay2 x0 x1 (k1_pay1 (F := F)) := by
  unfold sout1_E
  rw [View.read_writes_eq_canon _ _ _ (scover1_E c i arg2 harg2 arg3 harg3 arg4 harg4 arg5 harg5 arg6 harg6 x0 x1 x2 hc0 hc1)]
  unfold kernelRun1_E
  dsimp only
  sl_unfold_words
  rw [View.canon_cons_unit_zero (S := S512x2048) hz00, View.readCov_unit_zero (S := S512x2048) _ hz00]
  simp only [View.readAt_eq_ld, harg2.read_unread, harg3.read_unread, View.ld_unit_zero (S := S512x1024) hz00,
    View.ld_unit_zero (S := S2048x1024) hz00]

variable (xs : Vec F S512x2048 .f32)

/-- Second half, the accumulator: one whole store, whose payload is computed from the two input blocks and from the
    accumulator as found, each loaded whole. -/
theorem sout1_O_eq (hc0 : ¬cond1_0 i) (hc1 : cond1_1 i) :
    sout1_O c i arg2 harg2 arg3 harg3 arg4 harg4 arg5 harg5 arg6 harg6 x0 x1 x2 xs hc0 hc1 = k1_pay2 x0 x1 xs := by
  unfold sout1_O
  rw [View.read_writes_eq_canon _ _ _ (scover1_O c i arg2 harg2 arg3 harg3 arg4 harg4 arg5 harg5 arg6 harg6 x0 x1 x2 xs hc0 hc1)]
  unfold kernelRun1_O
  dsimp only
  sl_unfold_words
  rw [View.canon_unit_zero hz00]
  simp only [View.readAt_eq_ld, harg2.read_unread, harg3.read_unread, harg6.read_unread, View.ld_unit_zero (S := S512x1024) hz00,
    View.ld_unit_zero (S := S2048x1024) hz00, View.ld_unit_zero (S := S512x2048) hz00]

/-- Second half, the output block: one whole store, whose payload adds the bias row, loaded whole, to a load of what
    the accumulator's whole store just left, which is that store's payload. -/
theorem out1_O_eq (hc0 : ¬cond1_0 i) (hc1 : cond1_1 i) :
    out1_O c i arg2 harg2 arg3 harg3 arg4 harg4 arg5 harg5 arg6 harg6 x0 x1 x2 xs hc0 hc1 = k1_pay3 (k1_pay2 x0 x1 xs) x2 := by
  unfold out1_O
  rw [View.read_writes_eq_canon _ _ _ (cover1_O c i arg2 harg2 arg3 harg3 arg4 harg4 arg5 harg5 arg6 harg6 x0 x1 x2 xs hc0 hc1)]
  unfold kernelRun1_O
  dsimp only
  sl_unfold_words
  rw [View.canon_unit_zero hz00]
  simp only [View.readCov_unit_zero (S := S512x2048) _ hz00, View.readAt_eq_ld, harg2.read_unread, harg3.read_unread, harg4.read_unread,
    harg6.read_unread, View.ld_unit_zero (S := S512x1024) hz00, View.ld_unit_zero (S := S2048x1024) hz00,
    View.ld_unit_zero (S := S512x2048) hz00, View.ld_unit_zero (S := S1x2048) hz00]

end Cases

end Cert.KernelIdeal.Hand

end
-- ==== Proof.KiPay.lean ====
/-
  The kernel's four payloads read at an index, at the ideal values (every float an extended real, every
  operation exact, a change of format the identity, a literal its exact value).

  • the first kernel's product, narrowed: the product of the two elements;
  • the second kernel's zero fill: zero;
  • the second kernel's accumulation step: the accumulator's element plus the sum over the contraction
    axis of the products of the left operand's row and the right operand's row (the right operand is
    transposed before the product, so its row is read);
  • the second kernel's bias step: the accumulator's element plus the bias row's element in that column.
-/
import proofs.«161340_j23029614641364_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Mathlib.Algebra.BigOperators.Group.Finset.Defs
import Mathlib.Algebra.BigOperators.Group.Finset.Basic

noncomputable section

open scoped BigOperators

namespace Cert.KernelIdeal.HandPay

open Idealize.ShloMosaic Idealize.ShloMosaic.ValueIdx Cert.KernelIdeal Cert.KernelIdeal.Gen

/-! ## The first kernel's payload: a product, narrowed -/

/-- The narrowed product at an index is the product of the two elements. -/
theorem pay0_apply (v0 v1 : Vec Ideal S512x2048 .f32) (j : S512x2048.Idx) :
    k0_pay1 (F := Ideal) v0 v1 j = v0 j * v1 j := rfl

/-! ## The second kernel's zero fill -/

/-- The zero fill at an index is zero. -/
theorem pay1_apply (j : S512x2048.Idx) : k1_pay1 (F := Ideal) j = 0 := by
  unfold k1_pay1
  rw [shapeCast_self]
  exact Ideal.ofBits_zero_f32

/-! ## The second kernel's bias step -/

/-- The bias step at `(p, q)`: the accumulator's element plus the bias row at column `q`. -/
theorem pay3_apply (v17 : Vec Ideal S512x2048 .f32) (v18 : Vec Ideal S1x2048 .f32) (p : Fin 512) (q : Fin 2048) :
    k1_pay3 (F := Ideal) v17 v18 (ix2 p q) = v17 (ix2 p q) + v18 (ix2 0 q) := by
  unfold k1_pay3
  rw [shapeCast_self]
  show v17 (ix2 p q) + broadcastTo S512x2048 v18 broadcasts_S1x2048_S512x2048 (ix2 p q) = _
  rw [broadcastTo_1b_ab_apply]

/-! ## The second kernel's accumulation step

The product contracts the left operand's axis 1 with the right operand's axis 0 and has no batch axis: at result
index `(p, q)` and contraction position `k` the left operand is read at `(p, k)` and the right one at `(k, q)`. -/

/-- The left operand's row coordinate is the result's. -/
theorem lhs_pay2_0 (i : S512x2048.Idx) (c : dot_S512x1024_S1024x2048_S512x2048_1_0_0_1_n_n.contr.Idx) :
    (dot_S512x1024_S1024x2048_S512x2048_1_0_0_1_n_n.lhsIdx i c 0).val = (i 0).val := by
  unfold DotDims.lhsIdx
  rw [dif_neg (show ¬(0 : Fin S512x1024.rank) ∈ dot_S512x1024_S1024x2048_S512x2048_1_0_0_1_n_n.lhsBatch by decide), dif_pos (show (0 : Fin S512x1024.rank) ∈ dot_S512x1024_S1024x2048_S512x2048_1_0_0_1_n_n.lhsNonContracting by decide)]
  rfl
/-- The left operand's column coordinate is the contraction position. -/
theorem lhs_pay2_1 (i : S512x2048.Idx) (c : dot_S512x1024_S1024x2048_S512x2048_1_0_0_1_n_n.contr.Idx) :
    (dot_S512x1024_S1024x2048_S512x2048_1_0_0_1_n_n.lhsIdx i c 1).val = (c ⟨0, by decide⟩).val :=
  dot_S512x1024_S1024x2048_S512x2048_1_0_0_1_n_n.lhsIdx_val_of_single rfl i c
/-- The right operand's row coordinate is the contraction position. -/
theorem rhs_pay2_0 (i : S512x2048.Idx) (c : dot_S512x1024_S1024x2048_S512x2048_1_0_0_1_n_n.contr.Idx) :
    (dot_S512x1024_S1024x2048_S512x2048_1_0_0_1_n_n.rhsIdx i c 0).val = (c ⟨0, by decide⟩).val :=
  dot_S512x1024_S1024x2048_S512x2048_1_0_0_1_n_n.rhsIdx_val_of_single rfl i c
/-- The right operand's column coordinate is the result's. -/
theorem rhs_pay2_1 (i : S512x2048.Idx) (c : dot_S512x1024_S1024x2048_S512x2048_1_0_0_1_n_n.contr.Idx) :
    (dot_S512x1024_S1024x2048_S512x2048_1_0_0_1_n_n.rhsIdx i c 1).val = (i 1).val := by
  unfold DotDims.rhsIdx
  rw [dif_neg (show ¬(1 : Fin S1024x2048.rank) ∈ dot_S512x1024_S1024x2048_S512x2048_1_0_0_1_n_n.rhsBatch by decide), dif_pos (show (1 : Fin S1024x2048.rank) ∈ dot_S512x1024_S1024x2048_S512x2048_1_0_0_1_n_n.rhsNonContracting by decide)]
  rfl

/-- The product into a zero accumulator at `(p, q)`: the sum over `k` of the left operand at `(p, k)` times the right
    operand at `(k, q)`. -/
theorem matmul_zero_ix2 (a : FVec Ideal S512x1024 .bf16) (b : FVec Ideal S1024x2048 .bf16) (p : Fin 512) (q : Fin 2048) :
    matmul (F := Ideal) dot_S512x1024_S1024x2048_S512x2048_1_0_0_1_n_n none a b (constant (F := Ideal) S512x2048 .f32 0x00000000#32) (ix2 p q)
      = ∑ k : Fin 1024, a (ix2 p k) * b (ix2 k q) := by
  simp only [matmul]
  rw [Ideal.matmul_constant_zero_apply, ← Equiv.sum_comp (ValueIdx.contrEquiv1 dot_S512x1024_S1024x2048_S512x2048_1_0_0_1_n_n 1024 rfl rfl).symm]
  refine Finset.sum_congr rfl fun k _ => ?_
  have hk := ValueIdx.contrEquiv1_symm_val dot_S512x1024_S1024x2048_S512x2048_1_0_0_1_n_n 1024 rfl rfl k
  have el : dot_S512x1024_S1024x2048_S512x2048_1_0_0_1_n_n.lhsIdx (ix2 p q) ((ValueIdx.contrEquiv1 dot_S512x1024_S1024x2048_S512x2048_1_0_0_1_n_n 1024 rfl rfl).symm k) = ix2 p k := funext fun a => Fin.ext (by
    match a with
    | ⟨0, _⟩ => exact lhs_pay2_0 _ _
    | ⟨1, _⟩ => exact (lhs_pay2_1 _ _).trans hk)
  have er : dot_S512x1024_S1024x2048_S512x2048_1_0_0_1_n_n.rhsIdx (ix2 p q) ((ValueIdx.contrEquiv1 dot_S512x1024_S1024x2048_S512x2048_1_0_0_1_n_n 1024 rfl rfl).symm k) = ix2 k q := funext fun a => Fin.ext (by
    match a with
    | ⟨0, _⟩ => exact (rhs_pay2_0 _ _).trans hk
    | ⟨1, _⟩ => exact rhs_pay2_1 _ _)
  rw [el, er]

/-- The accumulation step at `(p, q)`: the accumulator's element plus the sum over `k` of the left operand at `(p, k)`
    times the right operand, before its transposition, at `(q, k)`. -/
theorem pay2_apply (v3 : Vec Ideal S512x1024 .f32) (v5 : Vec Ideal S2048x1024 .bf16) (v7 : Vec Ideal S512x2048 .f32)
    (p : Fin 512) (q : Fin 2048) :
    k1_pay2 (F := Ideal) v3 v5 v7 (ix2 p q) = v7 (ix2 p q) + ∑ k : Fin 1024, v3 (ix2 p k) * v5 (ix2 q k) := by
  unfold k1_pay2
  refine (congrFun (shapeCast_self _ shapeCasts_S512x2048_S512x2048) (ix2 p q)).trans ?_
  refine (addf_apply _ _ _).trans ?_
  refine congrArg (v7 (ix2 p q) + ·) ?_
  refine (matmul_zero_ix2 _ _ p q).trans ?_
  refine Finset.sum_congr rfl fun k _ => ?_
  refine congrArg (v3 (ix2 p k) * ·) ?_
  refine (transpose_ix2_apply _ _ k q).trans ?_
  exact congrFun (shapeCast_self v5 _) (ix2 q k)

end Cert.KernelIdeal.HandPay

end
-- ==== Proof.Spec.lean ====
/-
  The mathematics both programs compute, stated with no program in sight. For an input x of 16384 rows of 2048
  features, a mask and a weight of 2048 output columns by 2048 features, and a bias of 2048 output columns, over the
  extended reals:
    G      at (n, o) is  (the sum over the 2048 features k of x[n,k] * (mask[o,k] * weight[o,k])) + bias[o];
    Gsplit at (n, o) is  ((0 + the sum over the first 1024 features) + the sum over the last 1024 features) + bias[o].
  Addition on the extended reals is a commutative monoid, so the sum over 2048 = 1024 + 1024 features is the sum of
  its two halves with no finiteness hypothesis: Gsplit = G.
-/
import Idealize.ShloMosaic.PureOps.Ideal
import Idealize.ShloMosaic.Lib.ValueIdx
import Mathlib.Algebra.BigOperators.Fin

noncomputable section

open scoped BigOperators

namespace Cert.Spec

open Idealize.ShloMosaic Idealize.ShloMosaic.ValueIdx

/-- The input's shape: 16384 rows of 2048 features. -/
abbrev SX : Shape := ⟨2, ![16384, 2048]⟩
/-- The mask's and the weight's shape: 2048 output columns by 2048 features. -/
abbrev SW : Shape := ⟨2, ![2048, 2048]⟩
/-- The bias's shape: 2048 output columns. -/
abbrev SB : Shape := ⟨1, ![2048]⟩

/-- The summand at row and output column `i` and feature `k`: the input times the masked weight. -/
def f (x : SX.Idx → EReal) (mk w : SW.Idx → EReal) (i : SX.Idx) (k : Fin 2048) : EReal :=
  x (ix2 (i 0) k) * (mk (ix2 (i 1) k) * w (ix2 (i 1) k))

/-- The masked linear map: the contraction over all 2048 features, plus the bias of the output column. -/
def G (x : SX.Idx → EReal) (mk w : SW.Idx → EReal) (b : SB.Idx → EReal) : SX.Idx → EReal :=
  fun i => (∑ k : Fin 2048, x (ix2 (i 0) k) * (mk (ix2 (i 1) k) * w (ix2 (i 1) k))) + b (ix1 (i 1))

/-- Feature `k` of the first half, as a feature of the whole axis. -/
def lo (k : Fin 1024) : Fin 2048 := ⟨k.val, by have := k.isLt; omega⟩
/-- Feature `k` of the second half, as a feature of the whole axis. -/
def hi (k : Fin 1024) : Fin 2048 := ⟨1024 + k.val, by have := k.isLt; omega⟩

/-- The same map with the contraction taken in two halves of 1024 features, accumulated from zero. -/
def Gsplit (x : SX.Idx → EReal) (mk w : SW.Idx → EReal) (b : SB.Idx → EReal) : SX.Idx → EReal :=
  fun i => ((0 + ∑ k : Fin 1024, f x mk w i (lo k)) + ∑ k : Fin 1024, f x mk w i (hi k)) + b (ix1 (i 1))

/-- `G` through the summand `f`. -/
theorem G_apply (x : SX.Idx → EReal) (mk w : SW.Idx → EReal) (b : SB.Idx → EReal) (i : SX.Idx) :
    G x mk w b i = (∑ k : Fin 2048, f x mk w i k) + b (ix1 (i 1)) := rfl

/-- A sum over 2048 features is the sum over the first 1024 plus the sum over the last 1024. -/
theorem sum_halves (g : Fin 2048 → EReal) :
    ∑ k : Fin 2048, g k = (∑ k : Fin 1024, g (lo k)) + ∑ k : Fin 1024, g (hi k) := by
  exact Fin.sum_univ_add (a := 1024) (b := 1024) g

/-- Taking the contraction in two halves from zero changes nothing. -/
theorem Gsplit_eq_G (x : SX.Idx → EReal) (mk w : SW.Idx → EReal) (b : SB.Idx → EReal) :
    Gsplit x mk w b = G x mk w b := by
  funext i
  rw [G_apply, sum_halves, Gsplit, zero_add]

end Cert.Spec

end
-- ==== Proof.KiValue.lean ====
/-
  The idealized kernel's value. Over the extended reals the first region leaves, in its output array, the entrywise
  product of mask and weight: each of its four points writes back one block of 512 rows of that product, and the
  four blocks tile the array. The second region leaves, in the result, for row `n` and column `o`: zero plus the
  contraction of the input row with the product's row `o` over the first 1024 features (the first half's point),
  plus the same over the last 1024 features (the second half's point), plus the bias of the column; only the
  second half's points write a block back, one per block of 512 rows, and those 32 blocks tile the result. Read
  through the contents the regions are entered from — the input as launched, the product array where the first
  region left it, the bias reshaped to one row — this is the masked linear map with its contraction in two halves.
-/
import proofs.«161340_j23029614641364_1_alg».proof.Proof.KiPieces
import proofs.«161340_j23029614641364_1_alg».proof.Proof.KiPay
import proofs.«161340_j23029614641364_1_alg».proof.Proof.KiRun
import proofs.«161340_j23029614641364_1_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Spec (lo hi)

variable (V : (c : Dev nD) → (b : Ref sig .tc) → Buf (Elt Ideal) ((c : Thread nD τ).loc b))

/-! ## The arrays as the regions find them, at their literal types -/

abbrev a1 (c : Dev nD) : (⟨S2048x2048, .f32⟩ : BufTy).Contents (Elt Ideal) := V c main_arg1
abbrev a2 (c : Dev nD) : (⟨S2048x2048, .f32⟩ : BufTy).Contents (Elt Ideal) := V c main_arg2
abbrev aX (c : Dev nD) : (⟨S16384x2048, .f32⟩ : BufTy).Contents (Elt Ideal) := V c main_arg0
abbrev aM (c : Dev nD) : (⟨S2048x2048, .bf16⟩ : BufTy).Contents (Elt Ideal) := V c main_v0
abbrev aB (c : Dev nD) : (⟨S1x2048, .f32⟩ : BufTy).Contents (Elt Ideal) := V c main_v1

/-! ## The first region: the product array -/

/-- The entrywise product of two arrays of the mask's shape. -/
def MWf (a b : S2048x2048.Idx → EReal) : S2048x2048.Idx → EReal := fun i => a i * b i

/-- The block index of each window of the first region at point `t`: row block `t`, the one column block. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Point `t` writes back block `t` of the product of the two arrays as the region finds them. -/
theorem flushed0_eq (c : Dev nD) (t : Fin cfg0.N) :
    (dat0 V c).flushed 2 t = ((cfg0.win 2).blk t).view.read (Elt Ideal) (MWf (a1 V c) (a2 V c)) := by
  show (cfg0.win 2).cut (grid0.coords t) ((dat0 V c).after 2 t) = _
  rw [after0_2, prodBlk_eq]
  obtain ⟨e0, e1, e2, e3, e4, e5⟩ := idx_facts0 t
  funext j
  refine (HandPay.pay0_apply _ _ j).trans ?_
  show a1 V c (((cfg0.win 0).blk t).view.emb j) * a2 V c (((cfg0.win 1).blk t).view.emb j) = a1 V c (((cfg0.win 2).blk t).view.emb j) * a2 V c (((cfg0.win 2).blk t).view.emb j)
  have h0 : ((cfg0.win 0).blk t).view.emb j = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 2048 + 1 * (j 1).val = win0_2.index t (1 : Fin 2) * 2048 + 1 * (j 1).val; omega
  have h1 : ((cfg0.win 1).blk t).view.emb j = ((cfg0.win 2).blk t).view.emb j := by
    funext a; apply Fin.ext
    match a with
    | ⟨0, _⟩ => show win0_1.index t (0 : Fin 2) * 512 + 1 * (j 0).val = win0_2.index t (0 : Fin 2) * 512 + 1 * (j 0).val; omega
    | ⟨1, _⟩ => show win0_1.index t (1 : Fin 2) * 2048 + 1 * (j 1).val = win0_2.index t (1 : Fin 2) * 2048 + 1 * (j 1).val; omega
  rw [h0, h1]

/-- An index of the product array lies in point `t`'s block iff each coordinate lies in the block's range. -/
theorem mem_blk0 (t : Fin cfg0.N) (i : S2048x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v0).slice (win0_2.rect t)).set ↔ _
  rw [View.set_slice_whole, Rect.mem_set_unit]
  exact Iff.rfl

/-- The four blocks of 512 rows tile the array. -/
theorem cover0 (i : S2048x2048.Idx) : ∃ t : Fin cfg0.N, (cfg0.win 2).flush t = true ∧ i ∈ ((cfg0.win 2).blk t).view.set := by
  have hi0 : (i 0).val < 2048 := (i 0).isLt
  have hi1 : (i 1).val < 2048 := (i 1).isLt
  have hN : cfg0.N = 4 := N_0
  refine ⟨⟨(i 0).val / 512, by omega⟩, flush0_2 _, ?_⟩
  rw [mem_blk0]
  obtain ⟨-, -, -, -, e4, e5⟩ := idx_facts0 ⟨(i 0).val / 512, by omega⟩
  intro a
  match a with
  | ⟨0, _⟩ => show win0_2.index _ (0 : Fin 2) * 512 ≤ (i 0).val ∧ (i 0).val < win0_2.index _ (0 : Fin 2) * 512 + 512; rw [e4]; dsimp only; omega
  | ⟨1, _⟩ => show win0_2.index _ (1 : Fin 2) * 2048 ≤ (i 1).val ∧ (i 1).val < win0_2.index _ (1 : Fin 2) * 2048 + 2048; rw [e5]; omega

/-- After the first region its output array is the entrywise product of mask and weight. -/
theorem final0 (c : Dev nD) : (dat0 V c).arrAt 2 cfg0.N = MWf (a1 V c) (a2 V c) :=
  (dat0 V c).arrAt_eq_of_cover 2 (MWf (a1 V c) (a2 V c)) (fun t _ => flushed0_eq V c t) cover0

/-! ## The second region: the accumulated product plus bias -/

/-- The second region's output as one function of its three input arrays: at row `n` and column `o`, the contraction
    over the first half of the features added to zero, then the second half added, then the bias of the column. -/
def R1 (X : S16384x2048.Idx → EReal) (M : S2048x2048.Idx → EReal) (B : S1x2048.Idx → EReal) : S16384x2048.Idx → EReal :=
  fun i => ((0 + ∑ k : Fin 1024, X (ix2 (i 0) (lo k)) * M (ix2 (i 1) (lo k))) + ∑ k : Fin 1024, X (ix2 (i 0) (hi k)) * M (ix2 (i 1) (hi k))) + B (ix2 0 (i 1))

/-- The block index of each window of the second region at point `t`: row block `t / 2`, half `t % 2`. -/
theorem idx_facts1 : ∀ t : Fin cfg1.N, win1_0.index t (0 : Fin 2) = t.val / 2 ∧ win1_0.index t (1 : Fin 2) = t.val % 2
    ∧ win1_1.index t (0 : Fin 2) = 0 ∧ win1_1.index t (1 : Fin 2) = t.val % 2
    ∧ win1_2.index t (0 : Fin 2) = 0 ∧ win1_2.index t (1 : Fin 2) = 0
    ∧ win1_3.index t (0 : Fin 2) = t.val / 2 ∧ win1_3.index t (1 : Fin 2) = 0 :=
  (by decide +kernel : ∀ t : Fin grid1.N, _)

/-- The input blocks at a point, at their literal types. -/
abbrev xb (c : Dev nD) (t : Fin cfg1.N) : Vec Ideal S512x1024 .f32 := iblk1 V c 0 t
abbrev wb (c : Dev nD) (t : Fin cfg1.N) : Vec Ideal S2048x1024 .bf16 := iblk1 V c 1 t
abbrev bb (c : Dev nD) (t : Fin cfg1.N) : Vec Ideal S1x2048 .f32 := iblk1 V c 2 t

theorem cfg1N : cfg1.N = 64 := N_1

/-- Row `p` of the row block that point `t` works on, as a row of the input. -/
def rowOf (t : Fin cfg1.N) (p : Fin 512) : Fin 16384 := ⟨t.val / 2 * 512 + p.val, by have := t.isLt; have := cfg1N; have := p.isLt; omega⟩
/-- Feature `k` of the half that point `t` works on, as a feature of the whole axis. -/
def featOf (t : Fin cfg1.N) (k : Fin 1024) : Fin 2048 := ⟨t.val % 2 * 1024 + k.val, by have := k.isLt; omega⟩

theorem xb_apply (c : Dev nD) (t : Fin cfg1.N) (p : Fin 512) (k : Fin 1024) :
    xb V c t (ix2 p k) = aX V c (ix2 (rowOf t p) (featOf t k)) := by
  obtain ⟨e0, e1, -⟩ := idx_facts1 t
  show aX V c (((cfg1.win 0).blk t).view.emb (ix2 p k)) = _
  congr 1
  funext a; apply Fin.ext
  match a with
  | ⟨0, _⟩ => show win1_0.index t (0 : Fin 2) * 512 + 1 * p.val = t.val / 2 * 512 + p.val; omega
  | ⟨1, _⟩ => show win1_0.index t (1 : Fin 2) * 1024 + 1 * k.val = t.val % 2 * 1024 + k.val; omega

theorem wb_apply (c : Dev nD) (t : Fin cfg1.N) (q : Fin 2048) (k : Fin 1024) :
    wb V c t (ix2 q k) = aM V c (ix2 q (featOf t k)) := by
  obtain ⟨-, -, e2, e3, -⟩ := idx_facts1 t
  show aM V c (((cfg1.win 1).blk t).view.emb (ix2 q k)) = _
  congr 1
  funext a; apply Fin.ext
  match a with
  | ⟨0, _⟩ => show win1_1.index t (0 : Fin 2) * 2048 + 1 * q.val = q.val; omega
  | ⟨1, _⟩ => show win1_1.index t (1 : Fin 2) * 1024 + 1 * k.val = t.val % 2 * 1024 + k.val; omega

theorem bb_apply (c : Dev nD) (t : Fin cfg1.N) (q : Fin 2048) :
    bb V c t (ix2 0 q) = aB V c (ix2 0 q) := by
  obtain ⟨-, -, -, -, e4, e5, -⟩ := idx_facts1 t
  show aB V c (((cfg1.win 2).blk t).view.emb (ix2 0 q)) = _
  congr 1
  funext a; apply Fin.ext
  match a with
  | ⟨0, _⟩ => show win1_2.index t (0 : Fin 2) * 1 + 1 * 0 = 0; omega
  | ⟨1, _⟩ => show win1_2.index t (1 : Fin 2) * 2048 + 1 * q.val = q.val; omega

theorem emb3 (t : Fin cfg1.N) (p : Fin 512) (q : Fin 2048) :
    ((cfg1.win 3).blk t).view.emb (ix2 p q) = ix2 (rowOf t p) q := by
  obtain ⟨-, -, -, -, -, -, e6, e7⟩ := idx_facts1 t
  funext a; apply Fin.ext
  match a with
  | ⟨0, _⟩ => show win1_3.index t (0 : Fin 2) * 512 + 1 * p.val = t.val / 2 * 512 + p.val; omega
  | ⟨1, _⟩ => show win1_3.index t (1 : Fin 2) * 2048 + 1 * q.val = q.val; omega

theorem featOf_even (t : Fin cfg1.N) (h : t.val % 2 = 0) (k : Fin 1024) : featOf t k = lo k := Fin.ext (by show t.val % 2 * 1024 + k.val = k.val; omega)
theorem featOf_odd (t : Fin cfg1.N) (h : t.val % 2 = 1) (k : Fin 1024) : featOf t k = hi k := Fin.ext (by show t.val % 2 * 1024 + k.val = 1024 + k.val; omega)
theorem rowOf_pred (t : Fin cfg1.N) (h : t.val % 2 = 1) (h' : t.val - 1 < cfg1.N) (p : Fin 512) : rowOf ⟨t.val - 1, h'⟩ p = rowOf t p :=
  Fin.ext (by show (t.val - 1) / 2 * 512 + p.val = t.val / 2 * 512 + p.val; omega)

/-- A second-half point `t` writes back block `t / 2` of `R1` of the three input arrays as the region finds them. -/
theorem flushed1_eq (c : Dev nD) (t : Fin cfg1.N) (hf : (cfg1.win 3).flush t = true) :
    (dat1 V c).flushed 3 t = ((cfg1.win 3).blk t).view.read (Elt Ideal) (R1 (aX V c) (aM V c) (aB V c)) := by
  have hodd : t.val % 2 = 1 := (flush1_3 t).mp hf
  have h0 : ¬t.val % 2 = 0 := by omega
  have hN := cfg1N
  have hlt : t.val - 1 < cfg1.N := by have := t.isLt; omega
  have hev : (t.val - 1) % 2 = 0 := by omega
  show (cfg1.win 3).cut (grid1.coords t) ((dat1 V c).after 3 t) = _
  rw [after1_3, outAt_odd V c t.val t.isLt h0]
  unfold outOd; rw [out1_O_eq]
  unfold accEv; rw [sout1_E_eq]
  funext j
  obtain ⟨p, q, rfl⟩ : ∃ (p : Fin 512) (q : Fin 2048), j = ix2 p q := ⟨j 0, j 1, eq_ix2 j⟩
  refine (HandPay.pay3_apply _ _ p q).trans ?_
  refine (congrArg (· + _) ((HandPay.pay2_apply _ _ _ p q).trans (congrArg (· + _) ((HandPay.pay2_apply _ _ _ p q).trans (congrArg (· + _) (HandPay.pay1_apply _)))))).trans ?_
  show ((0 + ∑ k : Fin 1024, xb V c ⟨t.val - 1, hlt⟩ (ix2 p k) * wb V c ⟨t.val - 1, hlt⟩ (ix2 q k)) + ∑ k : Fin 1024, xb V c t (ix2 p k) * wb V c t (ix2 q k)) + bb V c t (ix2 0 q)
    = R1 (aX V c) (aM V c) (aB V c) (((cfg1.win 3).blk t).view.emb (ix2 p q))
  rw [emb3 t p q, bb_apply]
  simp only [xb_apply, wb_apply, featOf_even ⟨t.val - 1, hlt⟩ hev, featOf_odd t hodd, rowOf_pred t hodd hlt]
  rfl

theorem mem_blk1 (t : Fin cfg1.N) (i : S16384x2048.Idx) :
    i ∈ ((cfg1.win 3).blk t).view.set ↔ ∀ a : Fin 2, win1_3.index t a * S512x2048.size a ≤ (i a).val ∧ (i a).val < win1_3.index t a * S512x2048.size a + S512x2048.size a := by
  show i ∈ ((View.whole main_v2).slice (win1_3.rect t)).set ↔ _
  rw [View.set_slice_whole, Rect.mem_set_unit]
  exact Iff.rfl

/-- The 32 blocks of 512 rows, each written back at its second-half point, tile the result. -/
theorem cover1 (i : S16384x2048.Idx) : ∃ t : Fin cfg1.N, (cfg1.win 3).flush t = true ∧ i ∈ ((cfg1.win 3).blk t).view.set := by
  have hi0 : (i 0).val < 16384 := (i 0).isLt
  have hi1 : (i 1).val < 2048 := (i 1).isLt
  have hN : cfg1.N = 64 := N_1
  refine ⟨⟨2 * ((i 0).val / 512) + 1, by omega⟩, (flush1_3 _).mpr (by show (2 * ((i 0).val / 512) + 1) % 2 = 1; omega), ?_⟩
  rw [mem_blk1]
  obtain ⟨-, -, -, -, -, -, e6, e7⟩ := idx_facts1 ⟨2 * ((i 0).val / 512) + 1, by omega⟩
  intro a
  match a with
  | ⟨0, _⟩ => show win1_3.index _ (0 : Fin 2) * 512 ≤ (i 0).val ∧ (i 0).val < win1_3.index _ (0 : Fin 2) * 512 + 512; rw [e6]; dsimp only; omega
  | ⟨1, _⟩ => show win1_3.index _ (1 : Fin 2) * 2048 ≤ (i 1).val ∧ (i 1).val < win1_3.index _ (1 : Fin 2) * 2048 + 2048; rw [e7]; omega

/-- After the second region its output array is `R1` of the input, the product array and the reshaped bias. -/
theorem final1 (c : Dev nD) : (dat1 V c).arrAt 3 cfg1.N = R1 (aX V c) (aM V c) (aB V c) :=
  (dat1 V c).arrAt_eq_of_cover 3 (R1 (aX V c) (aM V c) (aB V c)) (fun t hf => flushed1_eq V c t hf) cover1

end Cert.KernelIdeal.HandValue

end

noncomputable section
open scoped BigOperators
namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-- The four arguments as launched, at their literal types. -/
abbrev mX (c : Dev nD) : (⟨S16384x2048, .f32⟩ : BufTy).Contents (Elt Ideal) := m ((c : Thread nD τ).loc main_arg0)
abbrev m1 (c : Dev nD) : (⟨S2048x2048, .f32⟩ : BufTy).Contents (Elt Ideal) := m ((c : Thread nD τ).loc main_arg1)
abbrev m2 (c : Dev nD) : (⟨S2048x2048, .f32⟩ : BufTy).Contents (Elt Ideal) := m ((c : Thread nD τ).loc main_arg2)
abbrev m3 (c : Dev nD) : (⟨S2048, .f32⟩ : BufTy).Contents (Elt Ideal) := m ((c : Thread nD τ).loc main_arg3)

/-- The second region finds the input as launched, -/
theorem Vb_arg0 (c : Dev nD) : aX (Vb m) c = mX m c :=
  (U2_of m c main_arg0 (by decide)).trans ((U1_of m c main_arg0 (by decide)).trans rfl)
/-- the product of mask and weight where the first region left it, -/
theorem Vb_v0 (c : Dev nD) : aM (Vb m) c = MWf (m1 m c) (m2 m c) :=
  (U2_of m c main_v0 (by decide)).trans ((U1_self m c).trans (final0 (Va m) c))
/-- and the bias reshaped to one row. -/
theorem Vb_v1 (c : Dev nD) : aB (Vb m) c = shapeCast S1x2048 (m3 m c) shapeCasts_S2048_S1x2048 := by
  show StableHlo.after hostOps1 (U1 m c) (Proc.devRef .tc main_v1) = _
  after_results
  rw [U1_of m c main_arg3 (by decide)]
  rfl

/-- THE KERNEL'S VALUE. What the second region's write-backs leave in the result is, over the extended reals, the
    masked linear map of the four arguments with its contraction taken in two halves from zero. -/
theorem res_eq (c : Dev nD) : resArr (F := Ideal) m c = Cert.Spec.Gsplit (mX m c) (m1 m c) (m2 m c) (m3 m c) := by
  unfold resArr
  rw [final1 (Vb m) c, Vb_arg0, Vb_v0, Vb_v1]
  funext i
  show ((0 + ∑ k : Fin 1024, mX m c (ix2 (i 0) (Cert.Spec.lo k)) * MWf (m1 m c) (m2 m c) (ix2 (i 1) (Cert.Spec.lo k)))
      + ∑ k : Fin 1024, mX m c (ix2 (i 0) (Cert.Spec.hi k)) * MWf (m1 m c) (m2 m c) (ix2 (i 1) (Cert.Spec.hi k)))
      + shapeCast S1x2048 (m3 m c) shapeCasts_S2048_S1x2048 (ix2 0 (i 1)) = _
  have hb : shapeCast S1x2048 (m3 m c) shapeCasts_S2048_S1x2048 (ix2 0 (i 1)) = m3 m c (ix1 (i 1)) :=
    shapeCast_a_1a_apply (a := 2048) (m3 m c) shapeCasts_S2048_S1x2048 0 (i 1)
  rw [hb]
  rfl

end Cert.KernelIdeal.HandValue
end
-- ==== Proof.RefValue.lean ====
/-
  The reference program's result, read at an index: the product of the mask and the weight contracted with the
  input along the feature axis, plus the bias of the output column.
-/
import proofs.«161340_j23029614641364_1_alg».proof.Defs
import proofs.«161340_j23029614641364_1_alg».proof.Proof.Gen.ReferenceIdeal.Run
import proofs.«161340_j23029614641364_1_alg».proof.Proof.Gen.ReferenceIdeal.Read
import proofs.«161340_j23029614641364_1_alg».proof.Proof.Spec

noncomputable section

open scoped BigOperators

namespace Cert.ReferenceIdeal.RefValue

open Idealize.ShloMosaic Idealize.ShloMosaic.ValueIdx Cert.ReferenceIdeal Cert.ReferenceIdeal.Read

/-- The contraction reads the input at row `i 0` and feature `k`. -/
theorem lidx_eq (i : S16384x2048.Idx) (k : Fin 2048) : lidx_main_v1 i k = ix2 (i 0) k :=
  funext fun a => Fin.ext (by match a with | ⟨0, _⟩ => rfl | ⟨1, _⟩ => rfl)

/-- The contraction reads the masked weight at output column `i 1` and feature `k`. -/
theorem ridx_eq (i : S16384x2048.Idx) (k : Fin 2048) : ridx_main_v1 i k = ix2 (i 1) k :=
  funext fun a => Fin.ext (by match a with | ⟨0, _⟩ => rfl | ⟨1, _⟩ => rfl)

/-- The two broadcasts of the bias read it at the output column `i 1`. -/
theorem bidx_eq (i : S16384x2048.Idx) : idx_main_v2 (idx_main_v3 i) = ix1 (i 1) :=
  funext fun a => Fin.ext (by match a with | ⟨0, _⟩ => rfl)

/-- Over the extended reals the reference's result is the masked linear map `G` of its four arguments: at row `n`
    and output column `o`, the sum over the features `k` of `x[n,k] * (mask[o,k] * weight[o,k])`, plus `bias[o]`. -/
theorem ref_eq_G (x0 : (⟨Cert.ReferenceIdeal.S16384x2048, .f32⟩ : BufTy).Contents (Elt Ideal))
    (x1 x2 : (⟨Cert.ReferenceIdeal.S2048x2048, .f32⟩ : BufTy).Contents (Elt Ideal))
    (x3 : (⟨Cert.ReferenceIdeal.S2048, .f32⟩ : BufTy).Contents (Elt Ideal)) :
    Cert.ReferenceIdeal.Read.val_main_v4 (F := Ideal) x0 x1 x2 x3 = Cert.Spec.G x0 x1 x2 x3 := by
  funext i
  rw [val_main_v4_apply, val_main_v1_apply, val_main_v3_apply, val_main_v2_apply, bidx_eq, Ideal.addf_def]
  unfold Cert.Spec.G
  congr 1
  refine Finset.sum_congr rfl fun k _ => ?_
  rw [val_main_v0_apply, lidx_eq, ridx_eq, Ideal.mulf_def]
  rfl

end Cert.ReferenceIdeal.RefValue

end
-- ==== Proof.lean ====
/-
  The certificate's claim. The kernel computes y = x · (mask ∘ weight)ᵀ + bias in two launches: the entrywise
  product of mask and weight, narrowed, block by block; then, per block of 512 rows, the matrix product accumulated
  over the two halves of the 2048 features in a scratch accumulator, cleared at the first half and, at the second,
  added to the bias and stored. The reference multiplies mask and weight, contracts the input with the product over
  all 2048 features and adds the broadcast bias.
  Frames: each kernel program's run is composed from its two regions and the host reshape between them (the
  word-level program's and the idealized program's are one text at two float instances); the reference's frame is
  its run with the result dropped. The idealization rewrote nothing, so it preserves the kernel trivially.
  Equality over the extended reals: the kernel's result is the contraction in two halves from zero plus the bias,
  the reference's is the contraction over all features plus the bias, and a sum over 2048 = 1024 + 1024 features is
  the sum of its halves in any commutative monoid — no finiteness of the inputs is used.
-/
import proofs.«161340_j23029614641364_1_alg».proof.Defs
import proofs.«161340_j23029614641364_1_alg».proof.Proof.Gen.Kernel
import proofs.«161340_j23029614641364_1_alg».proof.Proof.Gen.KernelIdeal
import proofs.«161340_j23029614641364_1_alg».proof.Proof.Gen.ReferenceIdeal
import proofs.«161340_j23029614641364_1_alg».proof.Proof.Gen.Pre_finite_inputs
import proofs.«161340_j23029614641364_1_alg».proof.Proof.Gen.ReferenceIdeal.Run
import proofs.«161340_j23029614641364_1_alg».proof.Proof.Gen.ReferenceIdeal.Read
import proofs.«161340_j23029614641364_1_alg».proof.Proof.KbRun
import proofs.«161340_j23029614641364_1_alg».proof.Proof.KiRun
import proofs.«161340_j23029614641364_1_alg».proof.Proof.KiValue
import proofs.«161340_j23029614641364_1_alg».proof.Proof.RefValue
import proofs.«161340_j23029614641364_1_alg».proof.Proof.Spec
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_k : Cert.frame_Kernel := fun m ρ _ =>
  (θ_run Cert.Kernel.defs _ _).mono (fun _ h c => (h c).2) (Cert.Kernel.Hand.run_main (F := Bits) m ρ)

/-- So does the idealized kernel. -/
theorem frame_ki : Cert.frame_KernelIdeal := fun m ρ _ =>
  (θ_run Cert.KernelIdeal.defs _ _).mono (fun _ h c => (h c).2) (Cert.KernelIdeal.Hand.run_main (F := Ideal) m ρ)

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the masked linear map of the
    arguments: the kernel at its two-halves form, the reference at the whole contraction, which are equal. -/
theorem algebraic : Cert.algebraic_KernelIdeal_ReferenceIdeal := by
  intro m ρ m' ρ' _ hagree
  refine ⟨fun c => Cert.Spec.Gsplit (Cert.KernelIdeal.HandValue.mX m c) (Cert.KernelIdeal.HandValue.m1 m c)
      (Cert.KernelIdeal.HandValue.m2 m c) (Cert.KernelIdeal.HandValue.m3 m c), ?_, ?_⟩
  · exact (θ_run Cert.KernelIdeal.defs _ _).mono
      (fun _ h c => ⟨(h c).1.trans (Cert.KernelIdeal.HandValue.res_eq m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v4_eq, Cert.ReferenceIdeal.RefValue.ref_eq_G,
      (hagree c).1, (hagree c).2.1, (hagree c).2.2.1, (hagree c).2.2.2]
    exact (Cert.Spec.Gsplit_eq_G _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
